-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64x64 .f32) (main_arg4 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S10000x64 : Shape := ⟨2, ![10000, 64]⟩
abbrev S400x10000 : Shape := ⟨2, ![400, 10000]⟩
abbrev S400x64 : Shape := ⟨2, ![400, 64]⟩
abbrev S10000x16 : Shape := ⟨2, ![10000, 16]⟩
abbrev S400x16 : Shape := ⟨2, ![400, 16]⟩

abbrev nBuf : Space → Nat
  | .hbm => 8
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S64x16, .f32⟩
  | .hbm, ⟨5, _⟩ => ⟨S10000x64, .f32⟩
  | .hbm, ⟨6, _⟩ => ⟨S10000x64, .f32⟩
  | .hbm, ⟨7, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S400x10000, .f32⟩
  | .local _ .vmem, ⟨3, _⟩ => ⟨S400x10000, .f32⟩
  | .local _ .vmem, ⟨4, _⟩ => ⟨S400x64, .f32⟩
  | .local _ .vmem, ⟨5, _⟩ => ⟨S400x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S400x10000, .f32⟩
  | .local _ .vmem, ⟨10, _⟩ => ⟨S400x10000, .f32⟩
  | .local _ .vmem, ⟨11, _⟩ => ⟨S400x64, .f32⟩
  | .local _ .vmem, ⟨12, _⟩ => ⟨S400x64, .f32⟩
  | .local _ .vmem, ⟨13, _⟩ => ⟨S10000x64, .f32⟩
  | .local _ .vmem, ⟨14, _⟩ => ⟨S10000x64, .f32⟩
  | .local _ .vmem, ⟨15, _⟩ => ⟨S64x16, .f32⟩
  | .local _ .vmem, ⟨16, _⟩ => ⟨S400x10000, .f32⟩
  | .local _ .vmem, ⟨17, _⟩ => ⟨S400x10000, .f32⟩
  | .local _ .vmem, ⟨18, _⟩ => ⟨S400x16, .f32⟩
  | .local _ .vmem, ⟨19, _⟩ => ⟨S400x16, .f32⟩
  | .local _ .vmem, ⟨20, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x16_S400x16_0_0 : ∀ a, (![0, 0] : Fin 2 → Nat) a + S400x16.size a ≤ S400x16.size a
  h_S400x16 : 0 < S400x16.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x64.size a ≤ S10000x64.size a
  hwx0_3 : ∀ i : grid0.Coords, EltTy.bits .f32 = 32 ∨ (Rect.block (s := S10000x64) S400x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .f32 = 32 ∨ (Rect.block (s := S10000x10000) S400x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S10000x64.size a
  hwx2_0 : ∀ i : grid2.Coords, EltTy.bits .f32 = 32 ∨ (Rect.block (s := S10000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .f32 = 32 ∨ (Rect.block (s := S10000x10000) S400x10000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S10000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S400x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x64 : Shape := ⟨2, ![64, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x64, .f32⟩
  | .hbm, ⟨4, _⟩ => ⟨S64x16, .f32⟩
  | .hbm, ⟨5, _⟩ => ⟨S10000x64, .f32⟩
  | .hbm, ⟨6, _⟩ => ⟨S10000x64, .f32⟩
  | .hbm, ⟨7, _⟩ => ⟨S_, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S_, .f32⟩
  | .hbm, ⟨13, _⟩ => ⟨S10000x64, .f32⟩
  | .hbm, ⟨14, _⟩ => ⟨S10000x64, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  bcast_S_S10000x16 : S_.BroadcastsInDim S10000x16 (![] : Fin 0 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Layer0.lean ====
/-
  Layer 0 of the graph network as one pipelined region: at the grid's first point the body multiplies the
  whole feature array by the whole weight array into a scratch buffer (`k0_pay1`), and at every point it
  multiplies the point's 400 rows of the adjacency by that scratch and clamps at zero (`k0_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.KernelIdeal.Launch
import proofs.«121063_g32023276159196_cont_9to1_2195_3_alg».proof.Proof.Gen.KernelIdeal.Skeleton
import proofs.«121063_g32023276159196_cont_9to1_2195_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid0.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg0.N, cond (grid0.coords t) ↔ t.val = 0 :=
  (by decide +kernel : ∀ t : Fin grid0.N, cond (grid0.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x64 .f32 := Memref.whole cc0_scratch0

set_option maxHeartbeats 1000000 in
/-- AT THE FIRST POINT (the branch taken): from the features `x`, the weights `w` and the adjacency rows `a` in
    their buffers, the output's and the scratch's at anything, the body leaves the scratch at the product
    `k0_pay1 x w` and the output block at `k0_pay2 a` of that product; the inputs stay. -/
theorem run_first (c : Dev nD) (E : Set ℕ) (i : grid0.Coords) (hc : cond i)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (x : Vec F S10000x128 .f32) (w : Vec F S128x64 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k0_pay2 a (k0_pay1 x w)) ∗ owns (c : Thread nD τ) arg5 fullShare (k0_pay1 x w)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    sl_unfold_words
    simp only [View.readAt_eq_ld, harg1.read_unread, harg2.read_unread, harg3.read_unread, View.ld_unit_zero (S := S400x10000) hz2,
      View.ld_unit_zero (S := S10000x128) hz2, View.ld_unit_zero (S := S128x64) hz2, View.readCov_unit_zero (S := S10000x64) _ hz2]
  iexists _; isplitr
  swap; · iexact H5
  ipureintro
  sl_unfold_words
  rw [View.read_writes_eq_canon _ _ _ (fun y => ⟨_, List.mem_singleton_self _, View.mem_set_unit_zero hz2 inb_S10000x64_S10000x64_0_0 y⟩),
    View.canon_unit_zero hz2]
  simp only [View.readAt_eq_ld, harg1.read_unread, harg2.read_unread, View.ld_unit_zero (S := S10000x128) hz2, View.ld_unit_zero (S := S128x64) hz2]

set_option maxHeartbeats 1000000 in
/-- AT A LATER POINT (the branch not taken): from the adjacency rows `a` and the scratch at `h`, the body leaves the
    output block at `k0_pay2 a h`; the scratch and the rows stay, and the other two buffers are not touched. -/
theorem run_later (c : Dev nD) (E : Set ℕ) (i : grid0.Coords) (hc : ¬cond i)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (a : Vec F S400x10000 .f32) (h : Vec F S10000x64 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k0_pay2 a h) ∗ owns (c : Thread nD τ) arg5 fullShare h) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    simp only [View.readAt_eq_ld, harg3.read_unread, harg5.read_unread, View.ld_unit_zero (S := S400x10000) hz2, View.ld_unit_zero (S := S10000x64) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg0.N := ⟨0, by decide⟩

/-- What the scratch holds from the first point on: the product of the whole feature array and the whole weight
    array, as the first point's blocks of the two (which are the whole arrays). -/
def hid (c : Dev nD) : Vec F S10000x64 .f32 := k0_pay1 (iblk V c 0 t0) (iblk V c 1 t0)

theorem hid_at (c : Dev nD) (t : Fin cfg0.N) (hz : t.val = 0) : hid V c = k0_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec0 c
  | _ + 1 => iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hn
  | succ n => rfl

/-- The start invariant with the scratch split off the other scoped buffers. -/
theorem PhiA_eq (c : Dev nD) :
    (Pipeline.ΦA spec0 c : sProp 𝕄)
      = iprop(iprop((∃ d, owns (c : Thread nD τ) scM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay2 (iblk V c 2 t) (hid V c)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay2 (iblk V c 2 t) (hid V c) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r)) := by
  dsimp only [dat]; simp only [Fin.val_succ]; rfl

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec0 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid0.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid0.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := .rfl

/-- After the last point the invariant gives the start invariant back: the scratch's value is forgotten. -/
theorem hout (c : Dev nD) : (dat V c).Φ (Fin.last cfg0.N) ⊢ Pipeline.ΦA spec0 c := by
  rw [show (dat V c).Φ (Fin.last cfg0.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.KernelIdeal.Layer0

end
-- ==== Proof.Layer1.lean ====
/-
  Layer 1 of the graph network as one pipelined region: at the grid's first point the body multiplies the
  whole feature array by the whole weight array into a scratch buffer (`k1_pay1`), and at every point it
  multiplies the point's 400 rows of the adjacency by that scratch and clamps at zero (`k1_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.KernelIdeal.Launch
import proofs.«121063_g32023276159196_cont_9to1_2195_3_alg».proof.Proof.Gen.KernelIdeal.Skeleton
import proofs.«121063_g32023276159196_cont_9to1_2195_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid1.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg1.N, cond (grid1.coords t) ↔ t.val = 0 :=
  (by decide +kernel : ∀ t : Fin grid1.N, cond (grid1.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x64 .f32 := Memref.whole cc1_scratch0

set_option maxHeartbeats 1000000 in
/-- AT THE FIRST POINT (the branch taken): from the features `x`, the weights `w` and the adjacency rows `a` in
    their buffers, the output's and the scratch's at anything, the body leaves the scratch at the product
    `k1_pay1 x w` and the output block at `k1_pay2 a` of that product; the inputs stay. -/
theorem run_first (c : Dev nD) (E : Set ℕ) (i : grid1.Coords) (hc : cond i)
    (arg1 : Memref sig .tc .vmem S10000x64 .f32) (harg1 : arg1.IsWhole) (arg2 : Memref sig .tc .vmem S64x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (x : Vec F S10000x64 .f32) (w : Vec F S64x64 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k1_pay2 a (k1_pay1 x w)) ∗ owns (c : Thread nD τ) arg5 fullShare (k1_pay1 x w)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    sl_unfold_words
    simp only [View.readAt_eq_ld, harg1.read_unread, harg2.read_unread, harg3.read_unread, View.ld_unit_zero (S := S400x10000) hz2,
      View.ld_unit_zero (S := S10000x64) hz2, View.ld_unit_zero (S := S64x64) hz2, View.readCov_unit_zero (S := S10000x64) _ hz2]
  iexists _; isplitr
  swap; · iexact H5
  ipureintro
  sl_unfold_words
  rw [View.read_writes_eq_canon _ _ _ (fun y => ⟨_, List.mem_singleton_self _, View.mem_set_unit_zero hz2 inb_S10000x64_S10000x64_0_0 y⟩),
    View.canon_unit_zero hz2]
  simp only [View.readAt_eq_ld, harg1.read_unread, harg2.read_unread, View.ld_unit_zero (S := S10000x64) hz2, View.ld_unit_zero (S := S64x64) hz2]

set_option maxHeartbeats 1000000 in
/-- AT A LATER POINT (the branch not taken): from the adjacency rows `a` and the scratch at `h`, the body leaves the
    output block at `k1_pay2 a h`; the scratch and the rows stay, and the other two buffers are not touched. -/
theorem run_later (c : Dev nD) (E : Set ℕ) (i : grid1.Coords) (hc : ¬cond i)
    (arg1 : Memref sig .tc .vmem S10000x64 .f32) (harg1 : arg1.IsWhole) (arg2 : Memref sig .tc .vmem S64x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (a : Vec F S400x10000 .f32) (h : Vec F S10000x64 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k1_pay2 a h) ∗ owns (c : Thread nD τ) arg5 fullShare h) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    simp only [View.readAt_eq_ld, harg3.read_unread, harg5.read_unread, View.ld_unit_zero (S := S400x10000) hz2, View.ld_unit_zero (S := S10000x64) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg1.N := ⟨0, by decide⟩

/-- What the scratch holds from the first point on: the product of the whole feature array and the whole weight
    array, as the first point's blocks of the two (which are the whole arrays). -/
def hid (c : Dev nD) : Vec F S10000x64 .f32 := k1_pay1 (iblk V c 0 t0) (iblk V c 1 t0)

theorem hid_at (c : Dev nD) (t : Fin cfg1.N) (hz : t.val = 0) : hid V c = k1_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec1 c
  | _ + 1 => iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn
  | succ n => rfl

/-- The start invariant with the scratch split off the other scoped buffers. -/
theorem PhiA_eq (c : Dev nD) :
    (Pipeline.ΦA spec1 c : sProp 𝕄)
      = iprop(iprop((∃ d, owns (c : Thread nD τ) scM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay2 (iblk V c 2 t) (hid V c)
  Φ t := PhiS V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay2 (iblk V c 2 t) (hid V c) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

theorem Phi_castSucc (c : Dev nD) (t : Fin cfg1.N) : (dat V c).Φ t.castSucc = PhiS V c t.val := by
  dsimp only [dat]; simp only [Fin.coe_castSucc]

theorem Phi_succ (c : Dev nD) (t : Fin cfg1.N) :
    (dat V c).Φ t.succ = iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r)) := by
  dsimp only [dat]; simp only [Fin.val_succ]; rfl

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec1 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid1.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid1.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := .rfl

/-- After the last point the invariant gives the start invariant back: the scratch's value is forgotten. -/
theorem hout (c : Dev nD) : (dat V c).Φ (Fin.last cfg1.N) ⊢ Pipeline.ΦA spec1 c := by
  rw [show (dat V c).Φ (Fin.last cfg1.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.KernelIdeal.Layer1

end
-- ==== Proof.Layer2.lean ====
/-
  Layer 2 of the graph network as one pipelined region: at the grid's first point the body multiplies the
  whole feature array by the whole weight array into a scratch buffer (`k2_pay1`), and at every point it
  multiplies the point's 400 rows of the adjacency by that scratch and clamps at zero (`k2_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.KernelIdeal.Launch
import proofs.«121063_g32023276159196_cont_9to1_2195_3_alg».proof.Proof.Gen.KernelIdeal.Skeleton
import proofs.«121063_g32023276159196_cont_9to1_2195_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid2.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg2.N, cond (grid2.coords t) ↔ t.val = 0 :=
  (by decide +kernel : ∀ t : Fin grid2.N, cond (grid2.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x16 .f32 := Memref.whole cc2_scratch0

set_option maxHeartbeats 1000000 in
/-- AT THE FIRST POINT (the branch taken): from the features `x`, the weights `w` and the adjacency rows `a` in
    their buffers, the output's and the scratch's at anything, the body leaves the scratch at the product
    `k2_pay1 x w` and the output block at `k2_pay2 a` of that product; the inputs stay. -/
theorem run_first (c : Dev nD) (E : Set ℕ) (i : grid2.Coords) (hc : cond i)
    (arg1 : Memref sig .tc .vmem S10000x64 .f32) (harg1 : arg1.IsWhole) (arg2 : Memref sig .tc .vmem S64x16 .f32) (harg2 : arg2.IsWhole)
    (arg3 : Memref sig .tc .vmem S400x10000 .f32) (harg3 : arg3.IsWhole) (arg4 : Memref sig .tc .vmem S400x16 .f32) (harg4 : arg4.IsWhole)
    (arg5 : Memref sig .tc .vmem S10000x16 .f32) (harg5 : arg5.IsWhole)
    (x : Vec F S10000x64 .f32) (w : Vec F S64x16 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k2_pay2 a (k2_pay1 x w)) ∗ owns (c : Thread nD τ) arg5 fullShare (k2_pay1 x w)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x16_S400x16_0_0 y⟩),
      View.canon_unit_zero hz2]
    sl_unfold_words
    simp only [View.readAt_eq_ld, harg1.read_unread, harg2.read_unread, harg3.read_unread, View.ld_unit_zero (S := S400x10000) hz2,
      View.ld_unit_zero (S := S10000x64) hz2, View.ld_unit_zero (S := S64x16) hz2, View.readCov_unit_zero (S := S10000x16) _ hz2]
  iexists _; isplitr
  swap; · iexact H5
  ipureintro
  sl_unfold_words
  rw [View.read_writes_eq_canon _ _ _ (fun y => ⟨_, List.mem_singleton_self _, View.mem_set_unit_zero hz2 inb_S10000x16_S10000x16_0_0 y⟩),
    View.canon_unit_zero hz2]
  simp only [View.readAt_eq_ld, harg1.read_unread, harg2.read_unread, View.ld_unit_zero (S := S10000x64) hz2, View.ld_unit_zero (S := S64x16) hz2]

set_option maxHeartbeats 1000000 in
/-- AT A LATER POINT (the branch not taken): from the adjacency rows `a` and the scratch at `h`, the body leaves the
    output block at `k2_pay2 a h`; the scratch and the rows stay, and the other two buffers are not touched. -/
theorem run_later (c : Dev nD) (E : Set ℕ) (i : grid2.Coords) (hc : ¬cond i)
    (arg1 : Memref sig .tc .vmem S10000x64 .f32) (harg1 : arg1.IsWhole) (arg2 : Memref sig .tc .vmem S64x16 .f32) (harg2 : arg2.IsWhole)
    (arg3 : Memref sig .tc .vmem S400x10000 .f32) (harg3 : arg3.IsWhole) (arg4 : Memref sig .tc .vmem S400x16 .f32) (harg4 : arg4.IsWhole)
    (arg5 : Memref sig .tc .vmem S10000x16 .f32) (harg5 : arg5.IsWhole)
    (a : Vec F S400x10000 .f32) (h : Vec F S10000x16 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k2_pay2 a h) ∗ owns (c : Thread nD τ) arg5 fullShare h) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x16_S400x16_0_0 y⟩),
      View.canon_unit_zero hz2]
    simp only [View.readAt_eq_ld, harg3.read_unread, harg5.read_unread, View.ld_unit_zero (S := S400x10000) hz2, View.ld_unit_zero (S := S10000x16) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg2.N := ⟨0, by decide⟩

/-- What the scratch holds from the first point on: the product of the whole feature array and the whole weight
    array, as the first point's blocks of the two (which are the whole arrays). -/
def hid (c : Dev nD) : Vec F S10000x16 .f32 := k2_pay1 (iblk V c 0 t0) (iblk V c 1 t0)

theorem hid_at (c : Dev nD) (t : Fin cfg2.N) (hz : t.val = 0) : hid V c = k2_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec2 c
  | _ + 1 => iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn
  | succ n => rfl

/-- The start invariant with the scratch split off the other scoped buffers. -/
theorem PhiA_eq (c : Dev nD) :
    (Pipeline.ΦA spec2 c : sProp 𝕄)
      = iprop(iprop((∃ d, owns (c : Thread nD τ) scM fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (iblk V c 2 t) (hid V c)
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay2 (iblk V c 2 t) (hid V c) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

theorem Phi_castSucc (c : Dev nD) (t : Fin cfg2.N) : (dat V c).Φ t.castSucc = PhiS V c t.val := by
  dsimp only [dat]; simp only [Fin.coe_castSucc]

theorem Phi_succ (c : Dev nD) (t : Fin cfg2.N) :
    (dat V c).Φ t.succ = iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r)) := by
  dsimp only [dat]; simp only [Fin.val_succ]; rfl

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec2 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid2.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid2.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := .rfl

/-- After the last point the invariant gives the start invariant back: the scratch's value is forgotten. -/
theorem hout (c : Dev nD) : (dat V c).Φ (Fin.last cfg2.N) ⊢ Pipeline.ΦA spec2 c := by
  rw [show (dat V c).Φ (Fin.last cfg2.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.KernelIdeal.Layer2

end
-- ==== Proof.Run.lean ====
/-
  The run of the three layers in order. Between two regions a core's unscoped buffers hold a known valuation:
  the launch memory, then after each layer the same with that layer's output array replaced by what its 25
  write-backs leave (every input array is handed back as it was found). Each region is entered from the valuation
  the one before it left, so the second layer's features are the first layer's output and the third's the
  second's. The launch over the three regions ends with every unscoped buffer at the last valuation; read at an
  argument it is the launch contents (no region writes an argument), and read at the result it is the third
  layer's output array.
  Stated at any float instance `F`.
-/
import proofs.«121063_g32023276159196_cont_9to1_2195_3_alg».proof.Proof.Layer0
import proofs.«121063_g32023276159196_cont_9to1_2195_3_alg».proof.Proof.Layer1
import proofs.«121063_g32023276159196_cont_9to1_2195_3_alg».proof.Proof.Layer2

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch. -/
abbrev W0 : Dev nD → Valuation τ sig (Elt F) := fun c b => (s₀ m ρ).mem ((c : Dev nD), b)
/-- The same read at the TensorCore's references (what layer 0's proof data take). -/
abbrev V0 : (c : Dev nD) → (b : Ref sig .tc) → Buf (Elt F) ((c : Thread nD τ).loc b) := fun c b => W0 m ρ c b

/-- After layer 0's region: its arrays at what the pipeline leaves (the inputs as entered, the output's write-backs
    folded), every other buffer as entered. -/
def W1 (c : Dev nD) : Valuation τ sig (Elt F) :=
  Pipeline.withArrays spec0 c (W0 m ρ c) fun w => (Layer0.dat (V0 m ρ) c).arrAt w cfg0.N
theorem W1_arr (c : Dev nD) (w : Fin cfg0.W) :
    W1 m ρ c (Proc.devRef .tc (Pipeline.arrRef spec0 w)) = (Layer0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Layer0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((Layer0.dat (V0 m ρ) c).arrAt_in w hw _).trans (Layer0.A_eq (V0 m ρ) c w))

/-- After layer 1's region: its arrays at what the pipeline leaves (the inputs as entered, the output's write-backs
    folded), every other buffer as entered. -/
def W2 (c : Dev nD) : Valuation τ sig (Elt F) :=
  Pipeline.withArrays spec1 c (W1 m ρ c) fun w => (Layer1.dat (V1 m ρ) c).arrAt w cfg1.N
theorem W2_arr (c : Dev nD) (w : Fin cfg1.W) :
    W2 m ρ c (Proc.devRef .tc (Pipeline.arrRef spec1 w)) = (Layer1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (Layer1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((Layer1.dat (V1 m ρ) c).arrAt_in w hw _).trans (Layer1.A_eq (V1 m ρ) c w))

/-- After layer 2's region: its arrays at what the pipeline leaves (the inputs as entered, the output's write-backs
    folded), every other buffer as entered. -/
def W3 (c : Dev nD) : Valuation τ sig (Elt F) :=
  Pipeline.withArrays spec2 c (W2 m ρ c) fun w => (Layer2.dat (V2 m ρ) c).arrAt w cfg2.N
theorem W3_arr (c : Dev nD) (w : Fin cfg2.W) :
    W3 m ρ c (Proc.devRef .tc (Pipeline.arrRef spec2 w)) = (Layer2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (Layer2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((Layer2.dat (V2 m ρ) c).arrAt_in w hw _).trans (Layer2.A_eq (V2 m ρ) c w))

/-! ## The arguments end as launched, and the features of each later layer are the output of the one before -/

theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_in m ρ c 0 rfl))
theorem W3_main_arg1 (c : Dev nD) : W3 m ρ c (Proc.devRef .tc main_arg1) = m ((c : Thread nD τ).loc main_arg1) :=
  (W3_in m ρ c 2 rfl).trans ((W2_in m ρ c 2 rfl).trans (W1_in m ρ c 2 rfl))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_in m ρ c 1 rfl))
theorem W3_main_arg3 (c : Dev nD) : W3 m ρ c (Proc.devRef .tc main_arg3) = m ((c : Thread nD τ).loc main_arg3) :=
  (W3_of_ne m ρ c main_arg3 (by decide)).trans ((W2_in m ρ c 1 rfl).trans (W1_of_ne m ρ c main_arg3 (by decide)))
theorem W3_main_arg4 (c : Dev nD) : W3 m ρ c (Proc.devRef .tc main_arg4) = m ((c : Thread nD τ).loc main_arg4) :=
  (W3_in m ρ c 1 rfl).trans ((W2_of_ne m ρ c main_arg4 (by decide)).trans (W1_of_ne m ρ c main_arg4 (by decide)))

/-- The adjacency and the weights as each later layer finds them are the launch contents. -/
theorem V1_main_arg1 (c : Dev nD) : V1 m ρ c main_arg1 = m ((c : Thread nD τ).loc main_arg1) := W1_in m ρ c 2 rfl
theorem V1_main_arg3 (c : Dev nD) : V1 m ρ c main_arg3 = m ((c : Thread nD τ).loc main_arg3) := W1_of_ne m ρ c main_arg3 (by decide)
theorem V2_main_arg1 (c : Dev nD) : V2 m ρ c main_arg1 = m ((c : Thread nD τ).loc main_arg1) :=
  (W2_in m ρ c 2 rfl).trans (W1_in m ρ c 2 rfl)
theorem V2_main_arg4 (c : Dev nD) : V2 m ρ c main_arg4 = m ((c : Thread nD τ).loc main_arg4) :=
  (W2_of_ne m ρ c main_arg4 (by decide)).trans (W1_of_ne m ρ c main_arg4 (by decide))
/-- Layer 1's features are layer 0's output array, layer 2's are layer 1's, and the result is layer 2's. -/
theorem V1_main_v0 (c : Dev nD) : V1 m ρ c main_v0 = (Layer0.dat (V0 m ρ) c).arrAt 3 cfg0.N := W1_arr m ρ c 3
theorem V2_main_v1 (c : Dev nD) : V2 m ρ c main_v1 = (Layer1.dat (V1 m ρ) c).arrAt 3 cfg1.N := W2_arr m ρ c 3
theorem V3_main_v2 (c : Dev nD) : V3 m ρ c main_v2 = (Layer2.dat (V2 m ρ) c).arrAt 3 cfg2.N := W3_arr m ρ c 3

/-! ## The proof data family and the thread state -/

/-- No pipeline has a prefetched table. -/
abbrev adm : (p : Fin 3) → (pcfgs (F := F) p).Adm := fun p => (cfgs p).toPCfg_adm
/-- Every pipeline's proof data, each at its region's entry contents: a literal match on the pipeline's number. -/
def pdats : (p : Fin 3) → (c : Dev nD) → Dat τ (Elt F) Unit ℕ (UR sig nD τ) ℕ (Pipeline.pin (pcfgs (F := F)) adm p) c
  | ⟨0, _⟩ => fun c => Layer0.dat (V0 m ρ) c
  | ⟨1, _⟩ => fun c => Layer1.dat (V1 m ρ) c
  | ⟨2, _⟩ => fun c => Layer2.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation. -/
abbrev Tₙ (c : Dev nD) : sProp 𝕄 := iprop(StableHlo.held (c : Thread nD τ) (Pipeline.ucRefs τ sig) (W3 m ρ c) ∗ ∃ r, prngReg c r)

/-! ## The regions -/

set_option backward.isDefEq.respectTransparency.types false in
/-- Layer 0's region over the thread state: entered from every unscoped buffer at `W0`, left at `W1`. Its four
    arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer0.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered from every unscoped buffer at `W1`, left at `W2`. Its four
    arrays are split out of the unscoped buffers and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer1.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W2`, left at `W3`. Its four
    arrays are split out of the unscoped buffers and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Layer2.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's three regions in order. -/
abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and in the
    final memory every unscoped buffer of every core holds the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_main m ρ)

end Cert.KernelIdeal.Run

end
-- ==== Proof.KLayer0.lean ====
/-
  Layer 0 of the graph network as one pipelined region: at the grid's first point the body multiplies the
  whole feature array by the whole weight array into a scratch buffer (`k0_pay1`), and at every point it
  multiplies the point's 400 rows of the adjacency by that scratch and clamps at zero (`k0_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.Kernel.Launch
import proofs.«121063_g32023276159196_cont_9to1_2195_3_alg».proof.Proof.Gen.Kernel.Skeleton
import proofs.«121063_g32023276159196_cont_9to1_2195_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid0.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg0.N, cond (grid0.coords t) ↔ t.val = 0 :=
  (by decide +kernel : ∀ t : Fin grid0.N, cond (grid0.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x64 .f32 := Memref.whole cc0_scratch0

set_option maxHeartbeats 1000000 in
/-- AT THE FIRST POINT (the branch taken): from the features `x`, the weights `w` and the adjacency rows `a` in
    their buffers, the output's and the scratch's at anything, the body leaves the scratch at the product
    `k0_pay1 x w` and the output block at `k0_pay2 a` of that product; the inputs stay. -/
theorem run_first (c : Dev nD) (E : Set ℕ) (i : grid0.Coords) (hc : cond i)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (x : Vec F S10000x128 .f32) (w : Vec F S128x64 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k0_pay2 a (k0_pay1 x w)) ∗ owns (c : Thread nD τ) arg5 fullShare (k0_pay1 x w)) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    sl_unfold_words
    simp only [View.readAt_eq_ld, harg1.read_unread, harg2.read_unread, harg3.read_unread, View.ld_unit_zero (S := S400x10000) hz2,
      View.ld_unit_zero (S := S10000x128) hz2, View.ld_unit_zero (S := S128x64) hz2, View.readCov_unit_zero (S := S10000x64) _ hz2]
  iexists _; isplitr
  swap; · iexact H5
  ipureintro
  sl_unfold_words
  rw [View.read_writes_eq_canon _ _ _ (fun y => ⟨_, List.mem_singleton_self _, View.mem_set_unit_zero hz2 inb_S10000x64_S10000x64_0_0 y⟩),
    View.canon_unit_zero hz2]
  simp only [View.readAt_eq_ld, harg1.read_unread, harg2.read_unread, View.ld_unit_zero (S := S10000x128) hz2, View.ld_unit_zero (S := S128x64) hz2]

set_option maxHeartbeats 1000000 in
/-- AT A LATER POINT (the branch not taken): from the adjacency rows `a` and the scratch at `h`, the body leaves the
    output block at `k0_pay2 a h`; the scratch and the rows stay, and the other two buffers are not touched. -/
theorem run_later (c : Dev nD) (E : Set ℕ) (i : grid0.Coords) (hc : ¬cond i)
    (arg1 : Memref sig .tc .vmem S10000x128 .f32) (harg1 : arg1.IsWhole) (arg2 : Memref sig .tc .vmem S128x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (a : Vec F S400x10000 .f32) (h : Vec F S10000x64 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k0_pay2 a h) ∗ owns (c : Thread nD τ) arg5 fullShare h) -∗ K ⟨⟩))
      ⊢ wp frame (wpE (defs₀ (F := F)) Variants.none c none) E (cc0__layer_kernel i arg1 harg1 arg2 harg2 arg3 harg3 arg4 harg4 arg5 harg5) K := by
  simp only [cc0__layer_kernel_eq_skeleton]; unfold cc0__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    simp only [View.readAt_eq_ld, harg3.read_unread, harg5.read_unread, View.ld_unit_zero (S := S400x10000) hz2, View.ld_unit_zero (S := S10000x64) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg0.N := ⟨0, by decide⟩

/-- What the scratch holds from the first point on: the product of the whole feature array and the whole weight
    array, as the first point's blocks of the two (which are the whole arrays). -/
def hid (c : Dev nD) : Vec F S10000x64 .f32 := k0_pay1 (iblk V c 0 t0) (iblk V c 1 t0)

theorem hid_at (c : Dev nD) (t : Fin cfg0.N) (hz : t.val = 0) : hid V c = k0_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec0 c
  | _ + 1 => iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hn
  | succ n => rfl

/-- The start invariant with the scratch split off the other scoped buffers. -/
theorem PhiA_eq (c : Dev nD) :
    (Pipeline.ΦA spec0 c : sProp 𝕄)
      = iprop(iprop((∃ d, owns (c : Thread nD τ) scM fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay2 (iblk V c 2 t) (hid V c)
  Φ t := PhiS V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = k0_pay2 (iblk V c 2 t) (hid V c) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

theorem Phi_castSucc (c : Dev nD) (t : Fin cfg0.N) : (dat V c).Φ t.castSucc = PhiS V c t.val := by
  dsimp only [dat]; simp only [Fin.coe_castSucc]

theorem Phi_succ (c : Dev nD) (t : Fin cfg0.N) :
    (dat V c).Φ t.succ = iprop(iprop(owns (c : Thread nD τ) scM fullShare (hid V c) ∗ Pipeline.scopedRestBut (Ix := Unit) (Name := ℕ) (U := UR sig nD τ) (Lvl := ℕ) (Val := Elt F) spec0 c [cc0_scratch0]) ∗ (∃ r, prngReg c r)) := by
  dsimp only [dat]; simp only [Fin.val_succ]; rfl

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec0 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid0.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid0.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := .rfl

/-- After the last point the invariant gives the start invariant back: the scratch's value is forgotten. -/
theorem hout (c : Dev nD) : (dat V c).Φ (Fin.last cfg0.N) ⊢ Pipeline.ΦA spec0 c := by
  rw [show (dat V c).Φ (Fin.last cfg0.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.Kernel.Layer0

end
-- ==== Proof.KLayer1.lean ====
/-
  Layer 1 of the graph network as one pipelined region: at the grid's first point the body multiplies the
  whole feature array by the whole weight array into a scratch buffer (`k1_pay1`), and at every point it
  multiplies the point's 400 rows of the adjacency by that scratch and clamps at zero (`k1_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.Kernel.Launch
import proofs.«121063_g32023276159196_cont_9to1_2195_3_alg».proof.Proof.Gen.Kernel.Skeleton
import proofs.«121063_g32023276159196_cont_9to1_2195_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid1.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg1.N, cond (grid1.coords t) ↔ t.val = 0 :=
  (by decide +kernel : ∀ t : Fin grid1.N, cond (grid1.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x64 .f32 := Memref.whole cc1_scratch0

set_option maxHeartbeats 1000000 in
/-- AT THE FIRST POINT (the branch taken): from the features `x`, the weights `w` and the adjacency rows `a` in
    their buffers, the output's and the scratch's at anything, the body leaves the scratch at the product
    `k1_pay1 x w` and the output block at `k1_pay2 a` of that product; the inputs stay. -/
theorem run_first (c : Dev nD) (E : Set ℕ) (i : grid1.Coords) (hc : cond i)
    (arg1 : Memref sig .tc .vmem S10000x64 .f32) (harg1 : arg1.IsWhole) (arg2 : Memref sig .tc .vmem S64x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (x : Vec F S10000x64 .f32) (w : Vec F S64x64 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k1_pay2 a (k1_pay1 x w)) ∗ owns (c : Thread nD τ) arg5 fullShare (k1_pay1 x w)) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    sl_unfold_words
    simp only [View.readAt_eq_ld, harg1.read_unread, harg2.read_unread, harg3.read_unread, View.ld_unit_zero (S := S400x10000) hz2,
      View.ld_unit_zero (S := S10000x64) hz2, View.ld_unit_zero (S := S64x64) hz2, View.readCov_unit_zero (S := S10000x64) _ hz2]
  iexists _; isplitr
  swap; · iexact H5
  ipureintro
  sl_unfold_words
  rw [View.read_writes_eq_canon _ _ _ (fun y => ⟨_, List.mem_singleton_self _, View.mem_set_unit_zero hz2 inb_S10000x64_S10000x64_0_0 y⟩),
    View.canon_unit_zero hz2]
  simp only [View.readAt_eq_ld, harg1.read_unread, harg2.read_unread, View.ld_unit_zero (S := S10000x64) hz2, View.ld_unit_zero (S := S64x64) hz2]

set_option maxHeartbeats 1000000 in
/-- AT A LATER POINT (the branch not taken): from the adjacency rows `a` and the scratch at `h`, the body leaves the
    output block at `k1_pay2 a h`; the scratch and the rows stay, and the other two buffers are not touched. -/
theorem run_later (c : Dev nD) (E : Set ℕ) (i : grid1.Coords) (hc : ¬cond i)
    (arg1 : Memref sig .tc .vmem S10000x64 .f32) (harg1 : arg1.IsWhole) (arg2 : Memref sig .tc .vmem S64x64 .f32) (harg2 : arg2.IsWhole)
    (arg3 : Memref sig .tc .vmem S400x10000 .f32) (harg3 : arg3.IsWhole) (arg4 : Memref sig .tc .vmem S400x64 .f32) (harg4 : arg4.IsWhole)
    (arg5 : Memref sig .tc .vmem S10000x64 .f32) (harg5 : arg5.IsWhole)
    (a : Vec F S400x10000 .f32) (h : Vec F S10000x64 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k1_pay2 a h) ∗ owns (c : Thread nD τ) arg5 fullShare h) -∗ K ⟨⟩))
      ⊢ wp frame (wpE (defs₀ (F := F)) Variants.none c none) E (cc1__layer_kernel i arg1 harg1 arg2 harg2 arg3 harg3 arg4 harg4 arg5 harg5) K := by
  simp only [cc1__layer_kernel_eq_skeleton]; unfold cc1__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x64_S400x64_0_0 y⟩),
      View.canon_unit_zero hz2]
    simp only [View.readAt_eq_ld, harg3.read_unread, harg5.read_unread, View.ld_unit_zero (S := S400x10000) hz2, View.ld_unit_zero (S := S10000x64) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg1.N := ⟨0, by decide⟩

/-- What the scratch holds from the first point on: the product of the whole feature array and the whole weight
    array, as the first point's blocks of the two (which are the whole arrays). -/
def hid (c : Dev nD) : Vec F S10000x64 .f32 := k1_pay1 (iblk V c 0 t0) (iblk V c 1 t0)

theorem hid_at (c : Dev nD) (t : Fin cfg1.N) (hz : t.val = 0) : hid V c = k1_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec1 c
  | _ + 1 => iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn
  | succ n => rfl

/-- The start invariant with the scratch split off the other scoped buffers. -/
theorem PhiA_eq (c : Dev nD) :
    (Pipeline.ΦA spec1 c : sProp 𝕄)
      = iprop(iprop((∃ d, owns (c : Thread nD τ) scM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => k1_pay2 (iblk V c 2 t) (hid V c)
  Φ t := PhiS V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = k1_pay2 (iblk V c 2 t) (hid V c) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

theorem Phi_castSucc (c : Dev nD) (t : Fin cfg1.N) : (dat V c).Φ t.castSucc = PhiS V c t.val := by
  dsimp only [dat]; simp only [Fin.coe_castSucc]

theorem Phi_succ (c : Dev nD) (t : Fin cfg1.N) :
    (dat V c).Φ t.succ = iprop(iprop(owns (c : Thread nD τ) scM fullShare (hid V c) ∗ Pipeline.scopedRestBut (Ix := Unit) (Name := ℕ) (U := UR sig nD τ) (Lvl := ℕ) (Val := Elt F) spec1 c [cc1_scratch0]) ∗ (∃ r, prngReg c r)) := by
  dsimp only [dat]; simp only [Fin.val_succ]; rfl

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec1 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid1.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid1.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := .rfl

/-- After the last point the invariant gives the start invariant back: the scratch's value is forgotten. -/
theorem hout (c : Dev nD) : (dat V c).Φ (Fin.last cfg1.N) ⊢ Pipeline.ΦA spec1 c := by
  rw [show (dat V c).Φ (Fin.last cfg1.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.Kernel.Layer1

end
-- ==== Proof.KLayer2.lean ====
/-
  Layer 2 of the graph network as one pipelined region: at the grid's first point the body multiplies the
  whole feature array by the whole weight array into a scratch buffer (`k2_pay1`), and at every point it
  multiplies the point's 400 rows of the adjacency by that scratch and clamps at zero (`k2_pay2`) into the
  output block. The scratch is written once and read at all 25 points, so after the first point the region's
  invariant keeps it at ONE value, the product of the two whole arrays; the feature and weight windows sit at
  block (0, 0) at every point, so that value does not depend on the point it is read at.
  Stated at any float instance `F` and at a PARAMETER `V`, the buffer contents the region is entered from.
-/
import proofs.«121063_g32023276159196_cont_9to1_2195_3_alg».proof.Proof.Gen.Kernel.Launch
import proofs.«121063_g32023276159196_cont_9to1_2195_3_alg».proof.Proof.Gen.Kernel.Skeleton
import proofs.«121063_g32023276159196_cont_9to1_2195_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body, case by case -/

/-- The body's one branch: taken exactly when the grid coordinate is zero. -/
abbrev cond (i : grid2.Coords) : Prop :=
  (Scalar.cmpi .ne (Scalar.extui (Scalar.cmpi .eq (BitVec.ofNat 32 (i 0).val) 0#32)) 0#32) = 1#1

/-- Over the 25 points it holds at the first and nowhere else. -/
theorem hcond : ∀ t : Fin cfg2.N, cond (grid2.coords t) ↔ t.val = 0 :=
  (by decide +kernel : ∀ t : Fin grid2.N, cond (grid2.coords t) ↔ t.val = 0)

/-- The offsets of a whole-buffer access are all zero. -/
theorem hz2 : (![0, 0] : Fin 2 → Nat) = fun _ => 0 := by funext a; fin_cases a <;> rfl

/-- The scratch operand: a whole scoped buffer of the kernel's own. -/
abbrev scM : Memref sig .tc .vmem S10000x16 .f32 := Memref.whole cc2_scratch0

set_option maxHeartbeats 1000000 in
/-- AT THE FIRST POINT (the branch taken): from the features `x`, the weights `w` and the adjacency rows `a` in
    their buffers, the output's and the scratch's at anything, the body leaves the scratch at the product
    `k2_pay1 x w` and the output block at `k2_pay2 a` of that product; the inputs stay. -/
theorem run_first (c : Dev nD) (E : Set ℕ) (i : grid2.Coords) (hc : cond i)
    (arg1 : Memref sig .tc .vmem S10000x64 .f32) (harg1 : arg1.IsWhole) (arg2 : Memref sig .tc .vmem S64x16 .f32) (harg2 : arg2.IsWhole)
    (arg3 : Memref sig .tc .vmem S400x10000 .f32) (harg3 : arg3.IsWhole) (arg4 : Memref sig .tc .vmem S400x16 .f32) (harg4 : arg4.IsWhole)
    (arg5 : Memref sig .tc .vmem S10000x16 .f32) (harg5 : arg5.IsWhole)
    (x : Vec F S10000x64 .f32) (w : Vec F S64x16 .f32) (a : Vec F S400x10000 .f32) (K : PUnit → sProp 𝕄) :
    iprop(owns (c : Thread nD τ) arg1 fullShare x ∗ owns (c : Thread nD τ) arg2 fullShare w ∗ owns (c : Thread nD τ) arg3 fullShare a
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w ∗ owns (c : Thread nD τ) arg3 fullShare a
            ∗ owns (c : Thread nD τ) arg4 fullShare (k2_pay2 a (k2_pay1 x w)) ∗ owns (c : Thread nD τ) arg5 fullShare (k2_pay1 x w)) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x16_S400x16_0_0 y⟩),
      View.canon_unit_zero hz2]
    sl_unfold_words
    simp only [View.readAt_eq_ld, harg1.read_unread, harg2.read_unread, harg3.read_unread, View.ld_unit_zero (S := S400x10000) hz2,
      View.ld_unit_zero (S := S10000x64) hz2, View.ld_unit_zero (S := S64x16) hz2, View.readCov_unit_zero (S := S10000x16) _ hz2]
  iexists _; isplitr
  swap; · iexact H5
  ipureintro
  sl_unfold_words
  rw [View.read_writes_eq_canon _ _ _ (fun y => ⟨_, List.mem_singleton_self _, View.mem_set_unit_zero hz2 inb_S10000x16_S10000x16_0_0 y⟩),
    View.canon_unit_zero hz2]
  simp only [View.readAt_eq_ld, harg1.read_unread, harg2.read_unread, View.ld_unit_zero (S := S10000x64) hz2, View.ld_unit_zero (S := S64x16) hz2]

set_option maxHeartbeats 1000000 in
/-- AT A LATER POINT (the branch not taken): from the adjacency rows `a` and the scratch at `h`, the body leaves the
    output block at `k2_pay2 a h`; the scratch and the rows stay, and the other two buffers are not touched. -/
theorem run_later (c : Dev nD) (E : Set ℕ) (i : grid2.Coords) (hc : ¬cond i)
    (arg1 : Memref sig .tc .vmem S10000x64 .f32) (harg1 : arg1.IsWhole) (arg2 : Memref sig .tc .vmem S64x16 .f32) (harg2 : arg2.IsWhole)
    (arg3 : Memref sig .tc .vmem S400x10000 .f32) (harg3 : arg3.IsWhole) (arg4 : Memref sig .tc .vmem S400x16 .f32) (harg4 : arg4.IsWhole)
    (arg5 : Memref sig .tc .vmem S10000x16 .f32) (harg5 : arg5.IsWhole)
    (a : Vec F S400x10000 .f32) (h : Vec F S10000x16 .f32) (K : PUnit → sProp 𝕄) :
    iprop(owns (c : Thread nD τ) arg3 fullShare a ∗ (∃ d, owns (c : Thread nD τ) arg4 fullShare d) ∗ owns (c : Thread nD τ) arg5 fullShare h
        ∗ (iprop(owns (c : Thread nD τ) arg3 fullShare a ∗ owns (c : Thread nD τ) arg4 fullShare (k2_pay2 a h) ∗ owns (c : Thread nD τ) arg5 fullShare h) -∗ K ⟨⟩))
      ⊢ wp frame (wpE (defs₀ (F := F)) Variants.none c none) E (cc2__layer_kernel i arg1 harg1 arg2 harg2 arg3 harg3 arg4 harg4 arg5 harg5) K := by
  simp only [cc2__layer_kernel_eq_skeleton]; unfold cc2__layer_kernel_skel
  unfold owns
  iintro ⟨⟨%f3, %hf3, H3⟩, ⟨%d4, %f4, -, H4⟩, ⟨%f5, %hf5, H5⟩, Hk⟩
  obtain rfl := harg3.eq_unread hf3; obtain rfl := harg5.eq_unread hf5
  sl_exec (disch := first | exact hc)
  sl_step
  iapply Hk
  isplitl [H3]
  · iexists _; isplitr; · ipureintro; exact harg3.read_unread _
    iexact H3
  isplitl [H4]
  · iexists _; isplitr
    swap; · iexact H4
    ipureintro
    rw [View.read_writes_eq_canon _ _ _ (fun y => ⟨_, List.mem_singleton_self _, View.mem_set_unit_zero hz2 inb_S400x16_S400x16_0_0 y⟩),
      View.canon_unit_zero hz2]
    simp only [View.readAt_eq_ld, harg3.read_unread, harg5.read_unread, View.ld_unit_zero (S := S400x10000) hz2, View.ld_unit_zero (S := S10000x16) hz2]
  iexists _; isplitr; · ipureintro; exact harg5.read_unread _
  iexact H5

/-! ## The region at the entry contents `V` -/

section Region

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: where it is not fetched
    its block index has not moved since the point before. For any proof data over `V`'s arrays whose body leaves the
    block in place; one statement per input window (features, weights, adjacency rows). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The grid's first point. -/
abbrev t0 : Fin cfg2.N := ⟨0, by decide⟩

/-- What the scratch holds from the first point on: the product of the whole feature array and the whole weight
    array, as the first point's blocks of the two (which are the whole arrays). -/
def hid (c : Dev nD) : Vec F S10000x16 .f32 := k2_pay1 (iblk V c 0 t0) (iblk V c 1 t0)

theorem hid_at (c : Dev nD) (t : Fin cfg2.N) (hz : t.val = 0) : hid V c = k2_pay1 (iblk V c 0 t) (iblk V c 1 t) := by
  obtain rfl : t = t0 := Fin.ext hz; rfl

/-- The region's invariant before position `n`: at the start every scoped buffer that is no staging buffer at
    anything and the generator register at some state; after the first point the same with the scratch at `hid`. -/
def PhiS (c : Dev nD) : ℕ → sProp 𝕄
  | 0 => Pipeline.ΦA spec2 c
  | _ + 1 => iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r))

theorem PhiS_pos (c : Dev nD) (n : ℕ) (hn : n ≠ 0) :
    PhiS V c n = iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn
  | succ n => rfl

/-- The start invariant with the scratch split off the other scoped buffers. -/
theorem PhiA_eq (c : Dev nD) :
    (Pipeline.ΦA spec2 c : sProp 𝕄)
      = iprop(iprop((∃ d, owns (c : Thread nD τ) scM fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM, owns_whole]; try rfl

/-- The region's proof data on core `c`: the arrays as the region finds them; after the body at point `t` each input's
    buffer at its block and the output's at the clamped product of the point's adjacency rows with `hid`; the
    invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay2 (iblk V c 2 t) (hid V c)
  Φ t := PhiS V c t.val
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = k2_pay2 (iblk V c 2 t) (hid V c) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

theorem Phi_castSucc (c : Dev nD) (t : Fin cfg2.N) : (dat V c).Φ t.castSucc = PhiS V c t.val := by
  dsimp only [dat]; simp only [Fin.coe_castSucc]

theorem Phi_succ (c : Dev nD) (t : Fin cfg2.N) :
    (dat V c).Φ t.succ = iprop(iprop(owns (c : Thread nD τ) scM fullShare (hid V c) ∗ Pipeline.scopedRestBut (Ix := Unit) (Name := ℕ) (U := UR sig nD τ) (Lvl := ℕ) (Val := Elt F) spec2 c [cc2_scratch0]) ∗ (∃ r, prngReg c r)) := by
  dsimp only [dat]; simp only [Fin.val_succ]; rfl

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

set_option maxHeartbeats 2000000 in
/-- The body at any point. At the first the invariant hands over the scratch at anything and takes it back at the
    product of the two whole arrays, which is `hid`; at a later point it hands the scratch over at `hid` and takes
    it back unchanged. Either way the output block is the clamped product of the point's adjacency rows with `hid`. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl,
    after_0, after_1, after_2, after_3, Phi_castSucc, Phi_succ]
  by_cases hz : t.val = 0
  · rw [show PhiS V c t.val = Pipeline.ΦA spec2 c from by rw [hz]; rfl, PhiA_eq, hid_at V c t hz]
    iintro ⟨⟨⟨HS, Hr⟩, Hg⟩, Ho, ⟨%d0, H0⟩, ⟨%d1, H1⟩, ⟨%d2, H2⟩, ⟨%d3, H3⟩⟩
    iapply (run_first c Set.univ (grid2.coords t) ((hcond t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · rw [PhiS_pos V c _ hz]
    iintro ⟨⟨⟨HS, Hr⟩, Hg⟩, Ho, ⟨%d0, H0⟩, ⟨%d1, H1⟩, ⟨%d2, H2⟩, ⟨%d3, H3⟩⟩
    iapply (run_later c Set.univ (grid2.coords t) (fun h => hz ((hcond t).mp h)) _ _ _ _ _ _ _ _ _ _ (iblk V c 2 t) (hid V c) _)
    isplitl [H2]; · iexact H2
    isplitl [H3]; · iexists _; iexact H3
    isplitl [HS]; · iexact HS
    iintro ⟨H2, H3, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := .rfl

/-- After the last point the invariant gives the start invariant back: the scratch's value is forgotten. -/
theorem hout (c : Dev nD) : (dat V c).Φ (Fin.last cfg2.N) ⊢ Pipeline.ΦA spec2 c := by
  rw [show (dat V c).Φ (Fin.last cfg2.N) = PhiS V c 25 from rfl, PhiS_pos V c 25 (by decide), PhiA_eq]
  iintro ⟨⟨HS, Hr⟩, Hg⟩
  isplitl [HS Hr]
  · isplitl [HS]
    · iexists _; iexact HS
    iexact Hr
  iexact Hg

end Region

end Cert.Kernel.Layer2

end
-- ==== Proof.KRun.lean ====
/-
  The run of the three layers in order. Between two regions a core's unscoped buffers hold a known valuation:
  the launch memory, then after each layer the same with that layer's output array replaced by what its 25
  write-backs leave (every input array is handed back as it was found). Each region is entered from the valuation
  the one before it left, so the second layer's features are the first layer's output and the third's the
  second's. The launch over the three regions ends with every unscoped buffer at the last valuation; read at an
  argument it is the launch contents (no region writes an argument), and read at the result it is the third
  layer's output array.
  Stated at any float instance `F`.
-/
import proofs.«121063_g32023276159196_cont_9to1_2195_3_alg».proof.Proof.KLayer0
import proofs.«121063_g32023276159196_cont_9to1_2195_3_alg».proof.Proof.KLayer1
import proofs.«121063_g32023276159196_cont_9to1_2195_3_alg».proof.Proof.KLayer2

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch. -/
abbrev W0 : Dev nD → Valuation τ sig (Elt F) := fun c b => (s₀ m ρ).mem ((c : Dev nD), b)
/-- The same read at the TensorCore's references (what layer 0's proof data take). -/
abbrev V0 : (c : Dev nD) → (b : Ref sig .tc) → Buf (Elt F) ((c : Thread nD τ).loc b) := fun c b => W0 m ρ c b

/-- After layer 0's region: its arrays at what the pipeline leaves (the inputs as entered, the output's write-backs
    folded), every other buffer as entered. -/
def W1 (c : Dev nD) : Valuation τ sig (Elt F) :=
  Pipeline.withArrays spec0 c (W0 m ρ c) fun w => (Layer0.dat (V0 m ρ) c).arrAt w cfg0.N
theorem W1_arr (c : Dev nD) (w : Fin cfg0.W) :
    W1 m ρ c (Proc.devRef .tc (Pipeline.arrRef spec0 w)) = (Layer0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Layer0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((Layer0.dat (V0 m ρ) c).arrAt_in w hw _).trans (Layer0.A_eq (V0 m ρ) c w))

/-- After layer 1's region: its arrays at what the pipeline leaves (the inputs as entered, the output's write-backs
    folded), every other buffer as entered. -/
def W2 (c : Dev nD) : Valuation τ sig (Elt F) :=
  Pipeline.withArrays spec1 c (W1 m ρ c) fun w => (Layer1.dat (V1 m ρ) c).arrAt w cfg1.N
theorem W2_arr (c : Dev nD) (w : Fin cfg1.W) :
    W2 m ρ c (Proc.devRef .tc (Pipeline.arrRef spec1 w)) = (Layer1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (Layer1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((Layer1.dat (V1 m ρ) c).arrAt_in w hw _).trans (Layer1.A_eq (V1 m ρ) c w))

/-- After layer 2's region: its arrays at what the pipeline leaves (the inputs as entered, the output's write-backs
    folded), every other buffer as entered. -/
def W3 (c : Dev nD) : Valuation τ sig (Elt F) :=
  Pipeline.withArrays spec2 c (W2 m ρ c) fun w => (Layer2.dat (V2 m ρ) c).arrAt w cfg2.N
theorem W3_arr (c : Dev nD) (w : Fin cfg2.W) :
    W3 m ρ c (Proc.devRef .tc (Pipeline.arrRef spec2 w)) = (Layer2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (Layer2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((Layer2.dat (V2 m ρ) c).arrAt_in w hw _).trans (Layer2.A_eq (V2 m ρ) c w))

/-! ## The arguments end as launched, and the features of each later layer are the output of the one before -/

theorem W3_main_arg0 (c : Dev nD) : W3 m ρ c (Proc.devRef .tc main_arg0) = m ((c : Thread nD τ).loc main_arg0) :=
  (W3_of_ne m ρ c main_arg0 (by decide)).trans ((W2_of_ne m ρ c main_arg0 (by decide)).trans (W1_in m ρ c 0 rfl))
theorem W3_main_arg1 (c : Dev nD) : W3 m ρ c (Proc.devRef .tc main_arg1) = m ((c : Thread nD τ).loc main_arg1) :=
  (W3_in m ρ c 2 rfl).trans ((W2_in m ρ c 2 rfl).trans (W1_in m ρ c 2 rfl))
theorem W3_main_arg2 (c : Dev nD) : W3 m ρ c (Proc.devRef .tc main_arg2) = m ((c : Thread nD τ).loc main_arg2) :=
  (W3_of_ne m ρ c main_arg2 (by decide)).trans ((W2_of_ne m ρ c main_arg2 (by decide)).trans (W1_in m ρ c 1 rfl))
theorem W3_main_arg3 (c : Dev nD) : W3 m ρ c (Proc.devRef .tc main_arg3) = m ((c : Thread nD τ).loc main_arg3) :=
  (W3_of_ne m ρ c main_arg3 (by decide)).trans ((W2_in m ρ c 1 rfl).trans (W1_of_ne m ρ c main_arg3 (by decide)))
theorem W3_main_arg4 (c : Dev nD) : W3 m ρ c (Proc.devRef .tc main_arg4) = m ((c : Thread nD τ).loc main_arg4) :=
  (W3_in m ρ c 1 rfl).trans ((W2_of_ne m ρ c main_arg4 (by decide)).trans (W1_of_ne m ρ c main_arg4 (by decide)))

/-- The adjacency and the weights as each later layer finds them are the launch contents. -/
theorem V1_main_arg1 (c : Dev nD) : V1 m ρ c main_arg1 = m ((c : Thread nD τ).loc main_arg1) := W1_in m ρ c 2 rfl
theorem V1_main_arg3 (c : Dev nD) : V1 m ρ c main_arg3 = m ((c : Thread nD τ).loc main_arg3) := W1_of_ne m ρ c main_arg3 (by decide)
theorem V2_main_arg1 (c : Dev nD) : V2 m ρ c main_arg1 = m ((c : Thread nD τ).loc main_arg1) :=
  (W2_in m ρ c 2 rfl).trans (W1_in m ρ c 2 rfl)
theorem V2_main_arg4 (c : Dev nD) : V2 m ρ c main_arg4 = m ((c : Thread nD τ).loc main_arg4) :=
  (W2_of_ne m ρ c main_arg4 (by decide)).trans (W1_of_ne m ρ c main_arg4 (by decide))
/-- Layer 1's features are layer 0's output array, layer 2's are layer 1's, and the result is layer 2's. -/
theorem V1_main_v0 (c : Dev nD) : V1 m ρ c main_v0 = (Layer0.dat (V0 m ρ) c).arrAt 3 cfg0.N := W1_arr m ρ c 3
theorem V2_main_v1 (c : Dev nD) : V2 m ρ c main_v1 = (Layer1.dat (V1 m ρ) c).arrAt 3 cfg1.N := W2_arr m ρ c 3
theorem V3_main_v2 (c : Dev nD) : V3 m ρ c main_v2 = (Layer2.dat (V2 m ρ) c).arrAt 3 cfg2.N := W3_arr m ρ c 3

/-! ## The proof data family and the thread state -/

/-- No pipeline has a prefetched table. -/
abbrev adm : (p : Fin 3) → (pcfgs (F := F) p).Adm := fun p => (cfgs p).toPCfg_adm
/-- Every pipeline's proof data, each at its region's entry contents: a literal match on the pipeline's number. -/
def pdats : (p : Fin 3) → (c : Dev nD) → Dat τ (Elt F) Unit ℕ (UR sig nD τ) ℕ (Pipeline.pin (pcfgs (F := F)) adm p) c
  | ⟨0, _⟩ => fun c => Layer0.dat (V0 m ρ) c
  | ⟨1, _⟩ => fun c => Layer1.dat (V1 m ρ) c
  | ⟨2, _⟩ => fun c => Layer2.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation. -/
abbrev Tₙ (c : Dev nD) : sProp 𝕄 := iprop(StableHlo.held (c : Thread nD τ) (Pipeline.ucRefs τ sig) (W3 m ρ c) ∗ ∃ r, prngReg c r)

/-! ## The regions -/

set_option backward.isDefEq.respectTransparency.types false in
/-- Layer 0's region over the thread state: entered from every unscoped buffer at `W0`, left at `W1`. Its four
    arrays are split out of the unscoped buffers and put back at the exit contents; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer0.hout (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 1's region over the thread state: entered from every unscoped buffer at `W1`, left at `W2`. Its four
    arrays are split out of the unscoped buffers and put back at the exit contents; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer1.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered from every unscoped buffer at `W2`, left at `W3`. Its four
    arrays are split out of the unscoped buffers and put back at the exit contents; the generator register goes into
    the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layer2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Layer2.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

/-- @main's three regions in order. -/
abbrev segs : List (Pipeline.Seg (pcfgs (F := F)) adm (pdats m ρ) () defs₀ 𝒱₀ L lv) :=
  [ .region (reg0 m ρ), .region (reg1 m ρ), .region (reg2 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and in the
    final memory every unscoped buffer of every core holds the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_main m ρ)

end Cert.Kernel.Run

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibGcnSpec.lean ====
/-
  One layer of a graph convolution at the extended reals, index by index: the features times the weights, the
  adjacency times that product, and a clamp at zero,

      layer A X W (p, q) = max (∑ₖ A(p, k) · (∑ⱼ X(k, j) · W(j, q))) 0,

  every sum a plain row-by-column sum over the contracted axis (no regrouping, so nothing here needs the entries to be
  finite). Three readings of it: the host's two `dot_general`s and `maximum` against a broadcast zero ARE this
  function; a matrix-unit product of a BLOCK OF ROWS of the adjacency with the whole hidden array, clamped, is this
  function read at those rows; and the hidden array a kernel keeps (one matrix-unit product into a zero accumulator)
  is the inner sum. A record of dimension numbers enters only through the six facts of a plain product, which any
  record listing "contract axis 1 of the left with axis 0 of the right, no batch axes" has.
-/
import Idealize.ShloMosaic.PureOps.Ideal
import Idealize.ShloMosaic.PureOps.Ideal.Laws
import Idealize.ShloMosaic.Lib.ValueIdx
import proofs.«121063_g32023276159196_cont_9to1_2195_3_alg».proof.Proof.LibSageSpec

noncomputable section

open scoped BigOperators

namespace Idealize.ShloMosaic.GcnSpec

open Idealize.ShloMosaic Idealize.ShloMosaic.ValueIdx Idealize.ShloMosaic.SageSpec

/-! ## Plain dimension numbers -/

/-- A record whose lists are the plain ones — contract axis 1 of the left operand with axis 0 of the right, the other
    two axes kept in order, no batch axis — reads its operands at (row, κ) and (κ, column), whatever the extents. -/
theorem plainDot_of_lists {n k m : Nat} (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  obtain ⟨lc, rc, ln, rn, lb, rb, wf⟩ := d
  dsimp only at hlc hrc hln hrn hlb hrb
  subst hlc hrc hln hrn hlb hrb
  refine ⟨rfl, fun _ => rfl, fun i q => ?_, fun i q _ => DotDims.lhsIdx_val_of_single _ rfl i q,
    fun i q _ => DotDims.rhsIdx_val_of_single _ rfl i q, fun i q => ?_⟩
  · unfold DotDims.lhsIdx
    rw [dif_neg List.not_mem_nil, dif_pos (List.mem_singleton.mpr rfl)]
    rfl
  · unfold DotDims.rhsIdx
    rw [dif_neg List.not_mem_nil, dif_pos (List.mem_singleton.mpr rfl)]
    rfl

/-! ## The layer -/

/-- The clamp at zero, the zero spelt as the word both programs print. -/
def clamp0 (s : EReal) : EReal := max s (Ideal.ofBits .f32 0x00000000#32)

/-- The hidden array: features times weights. -/
def hidden {n f h : Nat} (X : Mat n f) (W : Mat f h) : Mat n h := fun j => rowDot X W (j 0) (j 1)

/-- One layer: the adjacency times the hidden array, clamped at zero. -/
def layer {n f h : Nat} (A : Mat n n) (X : Mat n f) (W : Mat f h) : Mat n h :=
  fun i => clamp0 (rowDot A (hidden X W) (i 0) (i 1))

/-- A matrix-unit product into a zero accumulator, under a same-shape cast, is the hidden array. -/
theorem matmul_zero_eq_hidden {n f h : Nat} {d : DotDims ⟨2, ![n, f]⟩ ⟨2, ![f, h]⟩ ⟨2, ![n, h]⟩} (hd : PlainDot d)
    (prec : Option ContractPrecision) (X : FVec Ideal ⟨2, ![n, f]⟩ .f32) (W : FVec Ideal ⟨2, ![f, h]⟩ .f32) :
    FloatOps.matmul d prec X W (constant ⟨2, ![n, h]⟩ .f32 0x00000000#32) = hidden (fun i => X i) (fun i => W i) :=
  funext fun j => matmul_zero_at hd prec X W j

/-- The host's layer as printed — two `dot_general`s, then `maximum` against the broadcast zero word — is `layer`. -/
theorem host_layer {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (A : FVec Ideal ⟨2, ![n, n]⟩ .f32) (X : FVec Ideal ⟨2, ![n, f]⟩ .f32) (W : FVec Ideal ⟨2, ![f, h]⟩ .f32)
    (Z : FVec Ideal ⟨2, ![n, h]⟩ .f32) (hZ : ∀ i, Z i = Ideal.ofBits .f32 0x00000000#32) :
    maximumf (Host.dotGeneral d2 none A (Host.dotGeneral d1 none X W)) Z = layer (fun i => A i) (fun i => X i) (fun i => W i) := by
  funext i
  rw [maximumf_apply, hZ, dotGeneral_at h2]
  unfold layer clamp0 rowDot
  refine congrArg (fun s => max s _) (Finset.sum_congr rfl fun κ _ => ?_)
  exact congrArg (fun s => A (ix2 (i 0) κ) * s) (dotGeneral_at h1 none X W (ix2 κ (i 1)))

/-- The kernel's block: `b` rows of the adjacency (row `r` of the block is row `row r` of the array) times the whole
    hidden array on the matrix unit into a zero accumulator, clamped against the splat zero word, read at (r, q), is
    the layer at (row r, q). -/
theorem block_layer {n f h b : Nat} {d : DotDims ⟨2, ![b, n]⟩ ⟨2, ![n, h]⟩ ⟨2, ![b, h]⟩} (hd : PlainDot d)
    (A : Mat n n) (X : Mat n f) (W : Mat f h) (a : FVec Ideal ⟨2, ![b, n]⟩ .f32) (row : Fin b → Fin n)
    (ha : ∀ (r : Fin b) (κ : Fin n), a (ix2 r κ) = A (ix2 (row r) κ))
    (H : FVec Ideal ⟨2, ![n, h]⟩ .f32) (hH : ∀ j, H j = hidden X W j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = layer A X W (ix2 (row r) q) := by
  rw [maximumf_apply, hZ, matmul_zero_at hd]
  unfold layer clamp0 rowDot
  refine congrArg (fun s => max s _) (Finset.sum_congr rfl fun κ _ => ?_)
  show a (ix2 r κ) * H (ix2 κ q) = A (ix2 (row r) κ) * hidden X W (ix2 κ q)
  rw [ha, hH]

end Idealize.ShloMosaic.GcnSpec

end
-- ==== Proof.Value0.lean ====
/-
  Layer 0 read as a value, at the extended reals: the array its region leaves in the output window is the layer
  function of the three arrays the region finds — the adjacency, the features, the weights.
  The feature and weight windows sit at block (0, 0) of a whole-array block at every point, so their blocks ARE the
  arrays, and the scratch holds the hidden array (features times weights). Point `t` reads rows 400·t … 400·t + 399
  of the adjacency, so the block it writes back is the layer read at those rows; the 25 blocks tile the 10000 rows.
-/
import proofs.«121063_g32023276159196_cont_9to1_2195_3_alg».proof.Proof.Layer0
import proofs.«121063_g32023276159196_cont_9to1_2195_3_alg».proof.Proof.LibGcnSpec
import Idealize.ShloMosaic.Lib.Pipeline.Value
import Idealize.ShloMosaic.Lib.ValueIdx

set_option maxRecDepth 16384

noncomputable section

namespace Cert.KernelIdeal.Value0

open Idealize.ShloMosaic Idealize.ShloMosaic.TcCoe Idealize.SL.Sem
open Idealize.ShloMosaic.Pipeline (Dat Cfg Window)
open Idealize.ShloMosaic.ValueIdx Idealize.ShloMosaic.SageSpec Idealize.ShloMosaic.GcnSpec
open Cert.KernelIdeal Cert.KernelIdeal.Gen

variable (V : (c : Dev nD) → (b : Ref sig .tc) → Buf (Elt Ideal) ((c : Thread nD τ).loc b))

/-! ## The arrays, the records, the index maps -/

/-- The features, the weights and the adjacency as the region finds them, at their literal shapes. -/
abbrev xarr (c : Dev nD) : FVec Ideal S10000x128 .f32 := V c (Pipeline.arrRef spec0 0)
abbrev warr (c : Dev nD) : FVec Ideal S128x64 .f32 := V c (Pipeline.arrRef spec0 1)
abbrev aarr (c : Dev nD) : FVec Ideal S10000x10000 .f32 := V c (Pipeline.arrRef spec0 2)

/-- Both of the body's products have the plain dimension numbers. -/
theorem plain_hid : PlainDot dot_S10000x128_S128x64_S10000x64_1_0_0_1_n_n := plainDot_of_lists _ rfl rfl rfl rfl rfl rfl
theorem plain_out : PlainDot dot_S400x10000_S10000x64_S400x64_1_0_0_1_n_n := plainDot_of_lists _ rfl rfl rfl rfl rfl rfl

/-- The printed index maps over the grid: features and weights at block (0, 0) always; the adjacency rows and the
    output at block (t, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 25 := lt_of_lt_of_eq t.isLt (show cfg0.N = 25 from N_0)

/-- Row `r` of point `t`'s block is row 400·t + r of the array. -/
def rowOf (t : Fin cfg0.N) (r : Fin 400) : Fin 10000 := ⟨400 * t.val + r.val, by have := t_lt t; have := r.isLt; omega⟩

/-! ## The blocks -/

/-- The feature window's block is the whole feature array, at every point. -/
theorem xblk_eq (c : Dev nD) (t : Fin cfg0.N) : (Layer0.iblk V c 0 t : FVec Ideal S10000x128 .f32) = xarr V c := by
  funext j
  show xarr V c (((cfg0.win 0).blk t).view.emb j) = xarr V c j
  refine congrArg _ (funext fun a => Fin.ext ?_)
  obtain ⟨e0, e1, -⟩ := idx_facts t
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weight window's block is the whole weight array, at every point. -/
theorem wblk_eq (c : Dev nD) (t : Fin cfg0.N) : (Layer0.iblk V c 1 t : FVec Ideal S128x64 .f32) = warr V c := by
  funext j
  show warr V c (((cfg0.win 1).blk t).view.emb j) = warr V c j
  refine congrArg _ (funext fun a => Fin.ext ?_)
  obtain ⟨-, -, e2, e3, -⟩ := idx_facts t
  match a with
  | ⟨0, _⟩ => show win0_1.index t (0 : Fin 2) * 128 + 1 * (j 0).val = (j 0).val; omega
  | ⟨1, _⟩ => show win0_1.index t (1 : Fin 2) * 64 + 1 * (j 1).val = (j 1).val; omega

/-- The adjacency window's block at point `t`, read at (r, κ), is the adjacency at (400·t + r, κ). -/
theorem ablk_apply (c : Dev nD) (t : Fin cfg0.N) (r : Fin 400) (κ : Fin 10000) :
    (Layer0.iblk V c 2 t : FVec Ideal S400x10000 .f32) (ix2 r κ) = aarr V c (ix2 (rowOf t r) κ) := by
  show aarr V c (((cfg0.win 2).blk t).view.emb (ix2 r κ)) = aarr V c (ix2 (rowOf t r) κ)
  refine congrArg _ (funext fun a => Fin.ext ?_)
  obtain ⟨-, -, -, -, e4, e5, -⟩ := idx_facts t
  match a with
  | ⟨0, _⟩ => show win0_2.index t (0 : Fin 2) * 400 + 1 * r.val = 400 * t.val + r.val; omega
  | ⟨1, _⟩ => show win0_2.index t (1 : Fin 2) * 10000 + 1 * κ.val = κ.val; omega

/-! ## The payloads -/

/-- The scratch's payload is the hidden array of its two operands: a same-shape cast is the identity and the matrix
    unit's product into a zero accumulator is the row-by-column sum. -/
theorem pay1_eq (x : FVec Ideal S10000x128 .f32) (w : FVec Ideal S128x64 .f32) :
    k0_pay1 (F := Ideal) x w = hidden (fun i => x i) (fun i => w i) := by
  unfold k0_pay1
  simp only [Idealize.ShloMosaic.shapeCast_self]
  exact matmul_zero_eq_hidden plain_hid none _ _

/-- What the scratch holds from the first point on is the hidden array of the features and the weights. -/
theorem hid_eq (c : Dev nD) : Layer0.hid V c = hidden (fun i => xarr V c i) (fun i => warr V c i) :=
  (congrArg₂ (k0_pay1 (F := Ideal)) (xblk_eq V c Layer0.t0) (wblk_eq V c Layer0.t0)).trans (pay1_eq _ _)

/-- The output's payload over a block `a` of adjacency rows and the hidden array, read at (r, q), is the layer at the
    block's row. -/
theorem pay2_apply (A : Mat 10000 10000) (X : Mat 10000 128) (W : Mat 128 64) (a : FVec Ideal S400x10000 .f32) (row : Fin 400 → Fin 10000)
    (ha : ∀ (r : Fin 400) (κ : Fin 10000), a (ix2 r κ) = A (ix2 (row r) κ)) (H : FVec Ideal S10000x64 .f32) (hH : H = hidden X W)
    (r : Fin 400) (q : Fin 64) : k0_pay2 (F := Ideal) a H (ix2 r q) = layer A X W (ix2 (row r) q) := by
  unfold k0_pay2
  exact block_layer plain_out A X W a row ha H (fun j => by rw [hH]) _ (fun _ => rfl) r q

/-! ## From blocks to the array -/

/-- The layer function of the three arrays. -/
abbrev G (c : Dev nD) : FVec Ideal S10000x64 .f32 := layer (fun i => aarr V c i) (fun i => xarr V c i) (fun i => warr V c i)

/-- What point `t` writes back is block `t` of `G`. -/
theorem flushed_eq (c : Dev nD) (t : Fin cfg0.N) :
    (Layer0.dat V c).flushed 3 t = ((cfg0.win 3).blk t).view.read (Elt Ideal) (G V c) := by
  show (cfg0.win 3).cut (grid0.coords t) ((Layer0.dat V c).after 3 t) = _
  rw [Layer0.after_3]
  funext j
  obtain ⟨r, q, rfl⟩ : ∃ (r : Fin 400) (q : Fin 64), j = ix2 r q := ⟨j 0, j 1, eq_ix2 j⟩
  show k0_pay2 (F := Ideal) (Layer0.iblk V c 2 t) (Layer0.hid V c) (ix2 r q) = G V c (((cfg0.win 3).blk t).view.emb (ix2 r q))
  have hemb : ((cfg0.win 3).blk t).view.emb (ix2 r q) = ix2 (rowOf t r) q := by
    funext a; apply Fin.ext
    obtain ⟨-, -, -, -, -, -, e6, e7⟩ := idx_facts t
    match a with
    | ⟨0, _⟩ => show win0_3.index t (0 : Fin 2) * 400 + 1 * r.val = 400 * t.val + r.val; omega
    | ⟨1, _⟩ => show win0_3.index t (1 : Fin 2) * 64 + 1 * q.val = q.val; omega
  rw [hemb]
  exact pay2_apply (fun i => aarr V c i) (fun i => xarr V c i) (fun i => warr V c i) (Layer0.iblk V c 2 t) (rowOf t)
    (ablk_apply V c t) (Layer0.hid V c) (hid_eq V c) r q

/-- An index of the output array is in point `t`'s block iff each coordinate is in the block's range on its axis. -/
theorem mem_blk (t : Fin cfg0.N) (i : S10000x64.Idx) :
    i ∈ ((cfg0.win 3).blk t).view.set ↔ ∀ a : Fin 2, win0_3.index t a * S400x64.size a ≤ (i a).val ∧ (i a).val < win0_3.index t a * S400x64.size a + S400x64.size a := by
  show i ∈ ((View.whole main_v0).slice (win0_3.rect t)).set ↔ _
  rw [View.set_slice_whole, Rect.mem_set_unit]
  exact Iff.rfl

/-- Every index of the output array is in the block of the point its row falls in. -/
theorem cover (i : S10000x64.Idx) : ∃ t : Fin cfg0.N, (cfg0.win 3).flush t = true ∧ i ∈ ((cfg0.win 3).blk t).view.set := by
  have hi0 : (i 0).val < 10000 := idx2_lt0 i
  have hi1 : (i 1).val < 64 := idx2_lt1 i
  have hN : cfg0.N = 25 := N_0
  let t : Fin cfg0.N := ⟨(i 0).val / 400, by omega⟩
  refine ⟨t, flush0_3 t, ?_⟩
  rw [mem_blk]
  obtain ⟨-, -, -, -, -, -, e6, e7⟩ := idx_facts t
  have ht : t.val = (i 0).val / 400 := rfl
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 64 ≤ (i 1).val ∧ (i 1).val < win0_3.index t (1 : Fin 2) * 64 + 64; omega

/-- THE ARRAY after the region: the layer function of the adjacency, the features and the weights. -/
theorem out_eq (c : Dev nD) : (Layer0.dat V c).arrAt 3 cfg0.N = G V c :=
  (Layer0.dat V c).arrAt_eq_of_cover 3 (G V c) (fun t _ => flushed_eq V c t) cover

end Cert.KernelIdeal.Value0

end
-- ==== Proof.Value1.lean ====
/-
  Layer 1 read as a value, at the extended reals: the array its region leaves in the output window is the layer
  function of the three arrays the region finds — the adjacency, the features, the weights.
  The feature and weight windows sit at block (0, 0) of a whole-array block at every point, so their blocks ARE the
  arrays, and the scratch holds the hidden array (features times weights). Point `t` reads rows 400·t … 400·t + 399
  of the adjacency, so the block it writes back is the layer read at those rows; the 25 blocks tile the 10000 rows.
-/
import proofs.«121063_g32023276159196_cont_9to1_2195_3_alg».proof.Proof.Layer1
import proofs.«121063_g32023276159196_cont_9to1_2195_3_alg».proof.Proof.LibGcnSpec
import Idealize.ShloMosaic.Lib.Pipeline.Value
import Idealize.ShloMosaic.Lib.ValueIdx

set_option maxRecDepth 16384

noncomputable section

namespace Cert.KernelIdeal.Value1

open Idealize.ShloMosaic Idealize.ShloMosaic.TcCoe Idealize.SL.Sem
open Idealize.ShloMosaic.Pipeline (Dat Cfg Window)
open Idealize.ShloMosaic.ValueIdx Idealize.ShloMosaic.SageSpec Idealize.ShloMosaic.GcnSpec
open Cert.KernelIdeal Cert.KernelIdeal.Gen

variable (V : (c : Dev nD) → (b : Ref sig .tc) → Buf (Elt Ideal) ((c : Thread nD τ).loc b))

/-! ## The arrays, the records, the index maps -/

/-- The features, the weights and the adjacency as the region finds them, at their literal shapes. -/
abbrev xarr (c : Dev nD) : FVec Ideal S10000x64 .f32 := V c (Pipeline.arrRef spec1 0)
abbrev warr (c : Dev nD) : FVec Ideal S64x64 .f32 := V c (Pipeline.arrRef spec1 1)
abbrev aarr (c : Dev nD) : FVec Ideal S10000x10000 .f32 := V c (Pipeline.arrRef spec1 2)

/-- Both of the body's products have the plain dimension numbers. -/
theorem plain_hid : PlainDot dot_S10000x64_S64x64_S10000x64_1_0_0_1_n_n := plainDot_of_lists _ rfl rfl rfl rfl rfl rfl
theorem plain_out : PlainDot dot_S400x10000_S10000x64_S400x64_1_0_0_1_n_n := plainDot_of_lists _ rfl rfl rfl rfl rfl rfl

/-- The printed index maps over the grid: features and weights at block (0, 0) always; the adjacency rows and the
    output at block (t, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val < 25 := lt_of_lt_of_eq t.isLt (show cfg1.N = 25 from N_1)

/-- Row `r` of point `t`'s block is row 400·t + r of the array. -/
def rowOf (t : Fin cfg1.N) (r : Fin 400) : Fin 10000 := ⟨400 * t.val + r.val, by have := t_lt t; have := r.isLt; omega⟩

/-! ## The blocks -/

/-- The feature window's block is the whole feature array, at every point. -/
theorem xblk_eq (c : Dev nD) (t : Fin cfg1.N) : (Layer1.iblk V c 0 t : FVec Ideal S10000x64 .f32) = xarr V c := by
  funext j
  show xarr V c (((cfg1.win 0).blk t).view.emb j) = xarr V c j
  refine congrArg _ (funext fun a => Fin.ext ?_)
  obtain ⟨e0, e1, -⟩ := idx_facts t
  match a with
  | ⟨0, _⟩ => show win1_0.index t (0 : Fin 2) * 10000 + 1 * (j 0).val = (j 0).val; omega
  | ⟨1, _⟩ => show win1_0.index t (1 : Fin 2) * 64 + 1 * (j 1).val = (j 1).val; omega

/-- The weight window's block is the whole weight array, at every point. -/
theorem wblk_eq (c : Dev nD) (t : Fin cfg1.N) : (Layer1.iblk V c 1 t : FVec Ideal S64x64 .f32) = warr V c := by
  funext j
  show warr V c (((cfg1.win 1).blk t).view.emb j) = warr V c j
  refine congrArg _ (funext fun a => Fin.ext ?_)
  obtain ⟨-, -, e2, e3, -⟩ := idx_facts t
  match a with
  | ⟨0, _⟩ => show win1_1.index t (0 : Fin 2) * 64 + 1 * (j 0).val = (j 0).val; omega
  | ⟨1, _⟩ => show win1_1.index t (1 : Fin 2) * 64 + 1 * (j 1).val = (j 1).val; omega

/-- The adjacency window's block at point `t`, read at (r, κ), is the adjacency at (400·t + r, κ). -/
theorem ablk_apply (c : Dev nD) (t : Fin cfg1.N) (r : Fin 400) (κ : Fin 10000) :
    (Layer1.iblk V c 2 t : FVec Ideal S400x10000 .f32) (ix2 r κ) = aarr V c (ix2 (rowOf t r) κ) := by
  show aarr V c (((cfg1.win 2).blk t).view.emb (ix2 r κ)) = aarr V c (ix2 (rowOf t r) κ)
  refine congrArg _ (funext fun a => Fin.ext ?_)
  obtain ⟨-, -, -, -, e4, e5, -⟩ := idx_facts t
  match a with
  | ⟨0, _⟩ => show win1_2.index t (0 : Fin 2) * 400 + 1 * r.val = 400 * t.val + r.val; omega
  | ⟨1, _⟩ => show win1_2.index t (1 : Fin 2) * 10000 + 1 * κ.val = κ.val; omega

/-! ## The payloads -/

/-- The scratch's payload is the hidden array of its two operands: a same-shape cast is the identity and the matrix
    unit's product into a zero accumulator is the row-by-column sum. -/
theorem pay1_eq (x : FVec Ideal S10000x64 .f32) (w : FVec Ideal S64x64 .f32) :
    k1_pay1 (F := Ideal) x w = hidden (fun i => x i) (fun i => w i) := by
  unfold k1_pay1
  simp only [Idealize.ShloMosaic.shapeCast_self]
  exact matmul_zero_eq_hidden plain_hid none _ _

/-- What the scratch holds from the first point on is the hidden array of the features and the weights. -/
theorem hid_eq (c : Dev nD) : Layer1.hid V c = hidden (fun i => xarr V c i) (fun i => warr V c i) :=
  (congrArg₂ (k1_pay1 (F := Ideal)) (xblk_eq V c Layer1.t0) (wblk_eq V c Layer1.t0)).trans (pay1_eq _ _)

/-- The output's payload over a block `a` of adjacency rows and the hidden array, read at (r, q), is the layer at the
    block's row. -/
theorem pay2_apply (A : Mat 10000 10000) (X : Mat 10000 64) (W : Mat 64 64) (a : FVec Ideal S400x10000 .f32) (row : Fin 400 → Fin 10000)
    (ha : ∀ (r : Fin 400) (κ : Fin 10000), a (ix2 r κ) = A (ix2 (row r) κ)) (H : FVec Ideal S10000x64 .f32) (hH : H = hidden X W)
    (r : Fin 400) (q : Fin 64) : k1_pay2 (F := Ideal) a H (ix2 r q) = layer A X W (ix2 (row r) q) := by
  unfold k1_pay2
  exact block_layer plain_out A X W a row ha H (fun j => by rw [hH]) _ (fun _ => rfl) r q

/-! ## From blocks to the array -/

/-- The layer function of the three arrays. -/
abbrev G (c : Dev nD) : FVec Ideal S10000x64 .f32 := layer (fun i => aarr V c i) (fun i => xarr V c i) (fun i => warr V c i)

/-- What point `t` writes back is block `t` of `G`. -/
theorem flushed_eq (c : Dev nD) (t : Fin cfg1.N) :
    (Layer1.dat V c).flushed 3 t = ((cfg1.win 3).blk t).view.read (Elt Ideal) (G V c) := by
  show (cfg1.win 3).cut (grid1.coords t) ((Layer1.dat V c).after 3 t) = _
  rw [Layer1.after_3]
  funext j
  obtain ⟨r, q, rfl⟩ : ∃ (r : Fin 400) (q : Fin 64), j = ix2 r q := ⟨j 0, j 1, eq_ix2 j⟩
  show k1_pay2 (F := Ideal) (Layer1.iblk V c 2 t) (Layer1.hid V c) (ix2 r q) = G V c (((cfg1.win 3).blk t).view.emb (ix2 r q))
  have hemb : ((cfg1.win 3).blk t).view.emb (ix2 r q) = ix2 (rowOf t r) q := by
    funext a; apply Fin.ext
    obtain ⟨-, -, -, -, -, -, e6, e7⟩ := idx_facts t
    match a with
    | ⟨0, _⟩ => show win1_3.index t (0 : Fin 2) * 400 + 1 * r.val = 400 * t.val + r.val; omega
    | ⟨1, _⟩ => show win1_3.index t (1 : Fin 2) * 64 + 1 * q.val = q.val; omega
  rw [hemb]
  exact pay2_apply (fun i => aarr V c i) (fun i => xarr V c i) (fun i => warr V c i) (Layer1.iblk V c 2 t) (rowOf t)
    (ablk_apply V c t) (Layer1.hid V c) (hid_eq V c) r q

/-- An index of the output array is in point `t`'s block iff each coordinate is in the block's range on its axis. -/
theorem mem_blk (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v1).slice (win1_3.rect t)).set ↔ _
  rw [View.set_slice_whole, Rect.mem_set_unit]
  exact Iff.rfl

/-- Every index of the output array is in the block of the point its row falls in. -/
theorem cover (i : S10000x64.Idx) : ∃ t : Fin cfg1.N, (cfg1.win 3).flush t = true ∧ i ∈ ((cfg1.win 3).blk t).view.set := by
  have hi0 : (i 0).val < 10000 := idx2_lt0 i
  have hi1 : (i 1).val < 64 := idx2_lt1 i
  have hN : cfg1.N = 25 := N_1
  let t : Fin cfg1.N := ⟨(i 0).val / 400, by omega⟩
  refine ⟨t, flush1_3 t, ?_⟩
  rw [mem_blk]
  obtain ⟨-, -, -, -, -, -, e6, e7⟩ := idx_facts t
  have ht : t.val = (i 0).val / 400 := rfl
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 64 ≤ (i 1).val ∧ (i 1).val < win1_3.index t (1 : Fin 2) * 64 + 64; omega

/-- THE ARRAY after the region: the layer function of the adjacency, the features and the weights. -/
theorem out_eq (c : Dev nD) : (Layer1.dat V c).arrAt 3 cfg1.N = G V c :=
  (Layer1.dat V c).arrAt_eq_of_cover 3 (G V c) (fun t _ => flushed_eq V c t) cover

end Cert.KernelIdeal.Value1

end
-- ==== Proof.Value2.lean ====
/-
  Layer 2 read as a value, at the extended reals: the array its region leaves in the output window is the layer
  function of the three arrays the region finds — the adjacency, the features, the weights.
  The feature and weight windows sit at block (0, 0) of a whole-array block at every point, so their blocks ARE the
  arrays, and the scratch holds the hidden array (features times weights). Point `t` reads rows 400·t … 400·t + 399
  of the adjacency, so the block it writes back is the layer read at those rows; the 25 blocks tile the 10000 rows.
-/
import proofs.«121063_g32023276159196_cont_9to1_2195_3_alg».proof.Proof.Layer2
import proofs.«121063_g32023276159196_cont_9to1_2195_3_alg».proof.Proof.LibGcnSpec
import Idealize.ShloMosaic.Lib.Pipeline.Value
import Idealize.ShloMosaic.Lib.ValueIdx

set_option maxRecDepth 16384

noncomputable section

namespace Cert.KernelIdeal.Value2

open Idealize.ShloMosaic Idealize.ShloMosaic.TcCoe Idealize.SL.Sem
open Idealize.ShloMosaic.Pipeline (Dat Cfg Window)
open Idealize.ShloMosaic.ValueIdx Idealize.ShloMosaic.SageSpec Idealize.ShloMosaic.GcnSpec
open Cert.KernelIdeal Cert.KernelIdeal.Gen

variable (V : (c : Dev nD) → (b : Ref sig .tc) → Buf (Elt Ideal) ((c : Thread nD τ).loc b))

/-! ## The arrays, the records, the index maps -/

/-- The features, the weights and the adjacency as the region finds them, at their literal shapes. -/
abbrev xarr (c : Dev nD) : FVec Ideal S10000x64 .f32 := V c (Pipeline.arrRef spec2 0)
abbrev warr (c : Dev nD) : FVec Ideal S64x16 .f32 := V c (Pipeline.arrRef spec2 1)
abbrev aarr (c : Dev nD) : FVec Ideal S10000x10000 .f32 := V c (Pipeline.arrRef spec2 2)

/-- Both of the body's products have the plain dimension numbers. -/
theorem plain_hid : PlainDot dot_S10000x64_S64x16_S10000x16_1_0_0_1_n_n := plainDot_of_lists _ rfl rfl rfl rfl rfl rfl
theorem plain_out : PlainDot dot_S400x10000_S10000x16_S400x16_1_0_0_1_n_n := plainDot_of_lists _ rfl rfl rfl rfl rfl rfl

/-- The printed index maps over the grid: features and weights at block (0, 0) always; the adjacency rows and the
    output at block (t, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem t_lt (t : Fin cfg2.N) : t.val < 25 := lt_of_lt_of_eq t.isLt (show cfg2.N = 25 from N_2)

/-- Row `r` of point `t`'s block is row 400·t + r of the array. -/
def rowOf (t : Fin cfg2.N) (r : Fin 400) : Fin 10000 := ⟨400 * t.val + r.val, by have := t_lt t; have := r.isLt; omega⟩

/-! ## The blocks -/

/-- The feature window's block is the whole feature array, at every point. -/
theorem xblk_eq (c : Dev nD) (t : Fin cfg2.N) : (Layer2.iblk V c 0 t : FVec Ideal S10000x64 .f32) = xarr V c := by
  funext j
  show xarr V c (((cfg2.win 0).blk t).view.emb j) = xarr V c j
  refine congrArg _ (funext fun a => Fin.ext ?_)
  obtain ⟨e0, e1, -⟩ := idx_facts t
  match a with
  | ⟨0, _⟩ => show win2_0.index t (0 : Fin 2) * 10000 + 1 * (j 0).val = (j 0).val; omega
  | ⟨1, _⟩ => show win2_0.index t (1 : Fin 2) * 64 + 1 * (j 1).val = (j 1).val; omega

/-- The weight window's block is the whole weight array, at every point. -/
theorem wblk_eq (c : Dev nD) (t : Fin cfg2.N) : (Layer2.iblk V c 1 t : FVec Ideal S64x16 .f32) = warr V c := by
  funext j
  show warr V c (((cfg2.win 1).blk t).view.emb j) = warr V c j
  refine congrArg _ (funext fun a => Fin.ext ?_)
  obtain ⟨-, -, e2, e3, -⟩ := idx_facts t
  match a with
  | ⟨0, _⟩ => show win2_1.index t (0 : Fin 2) * 64 + 1 * (j 0).val = (j 0).val; omega
  | ⟨1, _⟩ => show win2_1.index t (1 : Fin 2) * 16 + 1 * (j 1).val = (j 1).val; omega

/-- The adjacency window's block at point `t`, read at (r, κ), is the adjacency at (400·t + r, κ). -/
theorem ablk_apply (c : Dev nD) (t : Fin cfg2.N) (r : Fin 400) (κ : Fin 10000) :
    (Layer2.iblk V c 2 t : FVec Ideal S400x10000 .f32) (ix2 r κ) = aarr V c (ix2 (rowOf t r) κ) := by
  show aarr V c (((cfg2.win 2).blk t).view.emb (ix2 r κ)) = aarr V c (ix2 (rowOf t r) κ)
  refine congrArg _ (funext fun a => Fin.ext ?_)
  obtain ⟨-, -, -, -, e4, e5, -⟩ := idx_facts t
  match a with
  | ⟨0, _⟩ => show win2_2.index t (0 : Fin 2) * 400 + 1 * r.val = 400 * t.val + r.val; omega
  | ⟨1, _⟩ => show win2_2.index t (1 : Fin 2) * 10000 + 1 * κ.val = κ.val; omega

/-! ## The payloads -/

/-- The scratch's payload is the hidden array of its two operands: a same-shape cast is the identity and the matrix
    unit's product into a zero accumulator is the row-by-column sum. -/
theorem pay1_eq (x : FVec Ideal S10000x64 .f32) (w : FVec Ideal S64x16 .f32) :
    k2_pay1 (F := Ideal) x w = hidden (fun i => x i) (fun i => w i) := by
  unfold k2_pay1
  simp only [Idealize.ShloMosaic.shapeCast_self]
  exact matmul_zero_eq_hidden plain_hid none _ _

/-- What the scratch holds from the first point on is the hidden array of the features and the weights. -/
theorem hid_eq (c : Dev nD) : Layer2.hid V c = hidden (fun i => xarr V c i) (fun i => warr V c i) :=
  (congrArg₂ (k2_pay1 (F := Ideal)) (xblk_eq V c Layer2.t0) (wblk_eq V c Layer2.t0)).trans (pay1_eq _ _)

/-- The output's payload over a block `a` of adjacency rows and the hidden array, read at (r, q), is the layer at the
    block's row. -/
theorem pay2_apply (A : Mat 10000 10000) (X : Mat 10000 64) (W : Mat 64 16) (a : FVec Ideal S400x10000 .f32) (row : Fin 400 → Fin 10000)
    (ha : ∀ (r : Fin 400) (κ : Fin 10000), a (ix2 r κ) = A (ix2 (row r) κ)) (H : FVec Ideal S10000x16 .f32) (hH : H = hidden X W)
    (r : Fin 400) (q : Fin 16) : k2_pay2 (F := Ideal) a H (ix2 r q) = layer A X W (ix2 (row r) q) := by
  unfold k2_pay2
  exact block_layer plain_out A X W a row ha H (fun j => by rw [hH]) _ (fun _ => rfl) r q

/-! ## From blocks to the array -/

/-- The layer function of the three arrays. -/
abbrev G (c : Dev nD) : FVec Ideal S10000x16 .f32 := layer (fun i => aarr V c i) (fun i => xarr V c i) (fun i => warr V c i)

/-- What point `t` writes back is block `t` of `G`. -/
theorem flushed_eq (c : Dev nD) (t : Fin cfg2.N) :
    (Layer2.dat V c).flushed 3 t = ((cfg2.win 3).blk t).view.read (Elt Ideal) (G V c) := by
  show (cfg2.win 3).cut (grid2.coords t) ((Layer2.dat V c).after 3 t) = _
  rw [Layer2.after_3]
  funext j
  obtain ⟨r, q, rfl⟩ : ∃ (r : Fin 400) (q : Fin 16), j = ix2 r q := ⟨j 0, j 1, eq_ix2 j⟩
  show k2_pay2 (F := Ideal) (Layer2.iblk V c 2 t) (Layer2.hid V c) (ix2 r q) = G V c (((cfg2.win 3).blk t).view.emb (ix2 r q))
  have hemb : ((cfg2.win 3).blk t).view.emb (ix2 r q) = ix2 (rowOf t r) q := by
    funext a; apply Fin.ext
    obtain ⟨-, -, -, -, -, -, e6, e7⟩ := idx_facts t
    match a with
    | ⟨0, _⟩ => show win2_3.index t (0 : Fin 2) * 400 + 1 * r.val = 400 * t.val + r.val; omega
    | ⟨1, _⟩ => show win2_3.index t (1 : Fin 2) * 16 + 1 * q.val = q.val; omega
  rw [hemb]
  exact pay2_apply (fun i => aarr V c i) (fun i => xarr V c i) (fun i => warr V c i) (Layer2.iblk V c 2 t) (rowOf t)
    (ablk_apply V c t) (Layer2.hid V c) (hid_eq V c) r q

/-- An index of the output array is in point `t`'s block iff each coordinate is in the block's range on its axis. -/
theorem mem_blk (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v2).slice (win2_3.rect t)).set ↔ _
  rw [View.set_slice_whole, Rect.mem_set_unit]
  exact Iff.rfl

/-- Every index of the output array is in the block of the point its row falls in. -/
theorem cover (i : S10000x16.Idx) : ∃ t : Fin cfg2.N, (cfg2.win 3).flush t = true ∧ i ∈ ((cfg2.win 3).blk t).view.set := by
  have hi0 : (i 0).val < 10000 := idx2_lt0 i
  have hi1 : (i 1).val < 16 := idx2_lt1 i
  have hN : cfg2.N = 25 := N_2
  let t : Fin cfg2.N := ⟨(i 0).val / 400, by omega⟩
  refine ⟨t, flush2_3 t, ?_⟩
  rw [mem_blk]
  obtain ⟨-, -, -, -, -, -, e6, e7⟩ := idx_facts t
  have ht : t.val = (i 0).val / 400 := rfl
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 16 ≤ (i 1).val ∧ (i 1).val < win2_3.index t (1 : Fin 2) * 16 + 16; omega

/-- THE ARRAY after the region: the layer function of the adjacency, the features and the weights. -/
theorem out_eq (c : Dev nD) : (Layer2.dat V c).arrAt 3 cfg2.N = G V c :=
  (Layer2.dat V c).arrAt_eq_of_cover 3 (G V c) (fun t _ => flushed_eq V c t) cover

end Cert.KernelIdeal.Value2

end
-- ==== Proof.RefValue.lean ====
/-
  The reference read as a value, at the extended reals: its result is the layer function applied three times,
  each time to the same adjacency, the features of a layer being the layer before. Each of its three stretches is
  two `dot_general`s and a `maximum` against a broadcast zero word, which is the layer function once the five
  records of dimension numbers are seen to be plain products.
-/
import proofs.«121063_g32023276159196_cont_9to1_2195_3_alg».proof.Proof.Gen.ReferenceIdeal.Read
import proofs.«121063_g32023276159196_cont_9to1_2195_3_alg».proof.Proof.LibGcnSpec

noncomputable section

namespace Cert.ReferenceIdeal.RefValue

open Idealize.ShloMosaic Idealize.ShloMosaic.ValueIdx Idealize.ShloMosaic.SageSpec Idealize.ShloMosaic.GcnSpec
open Cert.ReferenceIdeal Cert.ReferenceIdeal.Gen

/-- The reference's five products have the plain dimension numbers. -/
theorem plain_h0 : PlainDot dot_S10000x128_S128x64_S10000x64_1_0_0_1_n_n := plainDot_of_lists _ rfl rfl rfl rfl rfl rfl
theorem plain_h1 : PlainDot dot_S10000x64_S64x64_S10000x64_1_0_0_1_n_n := plainDot_of_lists _ rfl rfl rfl rfl rfl rfl
theorem plain_h2 : PlainDot dot_S10000x64_S64x16_S10000x16_1_0_0_1_n_n := plainDot_of_lists _ rfl rfl rfl rfl rfl rfl
theorem plain_a64 : PlainDot dot_S10000x10000_S10000x64_S10000x64_1_0_0_1_n_n := plainDot_of_lists _ rfl rfl rfl rfl rfl rfl
theorem plain_a16 : PlainDot dot_S10000x10000_S10000x16_S10000x16_1_0_0_1_n_n := plainDot_of_lists _ rfl rfl rfl rfl rfl rfl

/-- Three layers over one adjacency. -/
def net (A : Mat 10000 10000) (X : Mat 10000 128) (W0 : Mat 128 64) (W1 : Mat 64 64) (W2 : Mat 64 16) : Mat 10000 16 :=
  layer A (layer A (layer A X W0) W1) W2

/-- The reference run's result term is `net` of the five arguments. -/
theorem result_eq (X : FVec Ideal S10000x128 .f32) (A : FVec Ideal S10000x10000 .f32) (W0 : FVec Ideal S128x64 .f32)
    (W1 : FVec Ideal S64x64 .f32) (W2 : FVec Ideal S64x16 .f32) :
    maximumf (Host.dotGeneral dot_S10000x10000_S10000x16_S10000x16_1_0_0_1_n_n none A (Host.dotGeneral dot_S10000x64_S64x16_S10000x16_1_0_0_1_n_n none (maximumf (Host.dotGeneral dot_S10000x10000_S10000x64_S10000x64_1_0_0_1_n_n none A (Host.dotGeneral dot_S10000x64_S64x64_S10000x64_1_0_0_1_n_n none (maximumf (Host.dotGeneral dot_S10000x10000_S10000x64_S10000x64_1_0_0_1_n_n none A (Host.dotGeneral dot_S10000x128_S128x64_S10000x64_1_0_0_1_n_n none X W0)) (broadcastInDim S10000x64 ![] bcast_S_S10000x64 (constant S_ .f32 0x00000000#32))) W1)) (broadcastInDim S10000x64 ![] bcast_S_S10000x64 (constant S_ .f32 0x00000000#32))) W2)) (broadcastInDim S10000x16 ![] bcast_S_S10000x16 (constant S_ .f32 0x00000000#32))
      = net (fun i => A i) (fun i => X i) (fun i => W0 i) (fun i => W1 i) (fun i => W2 i) := by
  have e0 := host_layer plain_h0 plain_a64 A X W0 (broadcastInDim S10000x64 ![] bcast_S_S10000x64 (constant S_ .f32 0x00000000#32)) (fun _ => rfl)
  rw [e0]
  have e1 := host_layer plain_h1 plain_a64 A (layer (fun i => A i) (fun i => X i) (fun i => W0 i)) W1
    (broadcastInDim S10000x64 ![] bcast_S_S10000x64 (constant S_ .f32 0x00000000#32)) (fun _ => rfl)
  rw [e1]
  exact host_layer plain_h2 plain_a16 A _ W2 _ (fun _ => rfl)

end Cert.ReferenceIdeal.RefValue

end
-- ==== Proof.lean ====
/-
  A three-layer graph convolution, relu(adj · (x · W)) three times over one dense adjacency, as three pipelined
  kernel regions against the same three layers written with jnp.
  Each region computes its hidden array x · W once, at the grid's first point, into a scratch buffer it keeps for
  all 25 points, and at every point multiplies 400 rows of the adjacency by it and clamps at zero. At the extended
  reals the matrix unit's product into a zero accumulator and the host's `dot_general` are the same row-by-column
  sums, a block of rows of a product is the product of the block of rows, and the 25 blocks tile the rows; so each
  region leaves the layer function of the arrays it finds, and the three in sequence leave what the reference
  computes. No sum is regrouped, so the finiteness of the inputs is never used.
  The frames: each region's body runs through its two cases (the first point, a later point) with the scratch
  tracked in the region's invariant, and the three regions are composed by the several-regions launch; no region
  writes an argument. The idealization rewrote nothing, so `preserves` is `True`.
-/
import proofs.«121063_g32023276159196_cont_9to1_2195_3_alg».proof.Defs
import proofs.«121063_g32023276159196_cont_9to1_2195_3_alg».proof.Proof.Gen.Kernel
import proofs.«121063_g32023276159196_cont_9to1_2195_3_alg».proof.Proof.Gen.Kernel.Skeleton
import proofs.«121063_g32023276159196_cont_9to1_2195_3_alg».proof.Proof.Gen.Kernel.Launch
import proofs.«121063_g32023276159196_cont_9to1_2195_3_alg».proof.Proof.Gen.Kernel.Regions
import proofs.«121063_g32023276159196_cont_9to1_2195_3_alg».proof.Proof.Gen.Kernel.Points
import proofs.«121063_g32023276159196_cont_9to1_2195_3_alg».proof.Proof.Gen.KernelIdeal
import proofs.«121063_g32023276159196_cont_9to1_2195_3_alg».proof.Proof.Gen.KernelIdeal.Skeleton
import proofs.«121063_g32023276159196_cont_9to1_2195_3_alg».proof.Proof.Gen.KernelIdeal.Launch
import proofs.«121063_g32023276159196_cont_9to1_2195_3_alg».proof.Proof.Gen.KernelIdeal.Regions
import proofs.«121063_g32023276159196_cont_9to1_2195_3_alg».proof.Proof.Gen.KernelIdeal.Points
import proofs.«121063_g32023276159196_cont_9to1_2195_3_alg».proof.Proof.Gen.ReferenceIdeal
import proofs.«121063_g32023276159196_cont_9to1_2195_3_alg».proof.Proof.Gen.Pre_finite_inputs
import Idealize.ShloMosaic.Adequacy
import Idealize.ShloMosaic.Init
import proofs.«121063_g32023276159196_cont_9to1_2195_3_alg».proof.Proof.Run
import proofs.«121063_g32023276159196_cont_9to1_2195_3_alg».proof.Proof.KRun
import proofs.«121063_g32023276159196_cont_9to1_2195_3_alg».proof.Proof.Value0
import proofs.«121063_g32023276159196_cont_9to1_2195_3_alg».proof.Proof.Value1
import proofs.«121063_g32023276159196_cont_9to1_2195_3_alg».proof.Proof.Value2
import proofs.«121063_g32023276159196_cont_9to1_2195_3_alg».proof.Proof.RefValue

noncomputable section

namespace Cert.Proof

open Idealize.ShloMosaic Idealize.ShloMosaic.TcCoe Idealize.SL.Sem
open Idealize.ShloMosaic.ValueIdx Idealize.ShloMosaic.SageSpec Idealize.ShloMosaic.GcnSpec
open Cert.ReferenceIdeal.RefValue (net)

/-! ## What the kernel's three regions leave in the result -/

section
open Cert.KernelIdeal Cert.KernelIdeal.Gen Cert.KernelIdeal.Run

variable (m : (ℓ : Loc nD τ sig) → Buf (Elt Ideal) ℓ) (ρ : Dev nD → PrngReg)

/-- The last valuation at the result buffer is the three layers of the launch contents: each region leaves the layer
    function of what it finds, its adjacency and weights are the launch contents, and its features are what the
    region before left. -/
theorem kernel_result (c : Dev nD) :
    V3 m ρ c main_v2 = net (fun i => m ((c : Thread nD τ).loc main_arg1) i) (fun i => m ((c : Thread nD τ).loc main_arg0) i)
      (fun i => m ((c : Thread nD τ).loc main_arg2) i) (fun i => m ((c : Thread nD τ).loc main_arg3) i) (fun i => m ((c : Thread nD τ).loc main_arg4) i) := by
  rw [V3_main_v2, Cert.KernelIdeal.Value2.out_eq]
  show layer (fun i => V2 m ρ c main_arg1 i) (fun i => V2 m ρ c main_v1 i) (fun i => V2 m ρ c main_arg4 i) = _
  rw [V2_main_arg1, V2_main_v1, V2_main_arg4, Cert.KernelIdeal.Value1.out_eq]
  show layer _ (layer (fun i => V1 m ρ c main_arg1 i) (fun i => V1 m ρ c main_v0 i) (fun i => V1 m ρ c main_arg3 i)) _ = _
  rw [V1_main_arg1, V1_main_v0, V1_main_arg3, Cert.KernelIdeal.Value0.out_eq]
  rfl

end

/-! ## The claims -/

theorem frame_k : Cert.frame_Kernel := fun m ρ _ => Cert.Kernel.Run.frame m ρ

theorem frame_ki : Cert.frame_KernelIdeal := fun m ρ _ => Cert.KernelIdeal.Run.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the three layers of the arguments: the kernel by its three regions, the
    reference by its run read as a value; the memories agree on the arguments. -/
theorem algebraic : Cert.algebraic_KernelIdeal_ReferenceIdeal := by
  intro m ρ m' ρ' _ hagree
  refine ⟨fun c => net (fun i => m ((c.tc : Thread Cert.KernelIdeal.nD Cert.KernelIdeal.τ).loc Cert.KernelIdeal.main_arg1) i)
      (fun i => m ((c.tc : Thread Cert.KernelIdeal.nD Cert.KernelIdeal.τ).loc Cert.KernelIdeal.main_arg0) i)
      (fun i => m ((c.tc : Thread Cert.KernelIdeal.nD Cert.KernelIdeal.τ).loc Cert.KernelIdeal.main_arg2) i)
      (fun i => m ((c.tc : Thread Cert.KernelIdeal.nD Cert.KernelIdeal.τ).loc Cert.KernelIdeal.main_arg3) i)
      (fun i => m ((c.tc : Thread Cert.KernelIdeal.nD Cert.KernelIdeal.τ).loc Cert.KernelIdeal.main_arg4) i), ?_, ?_⟩
  · exact (θ_run Cert.KernelIdeal.defs _ _).mono (fun _ h c =>
      ⟨(h c _ (Cert.KernelIdeal.Run.mem_uc Cert.KernelIdeal.main_v2 (by decide))).trans (kernel_result m ρ c),
       (h c _ (Cert.KernelIdeal.Run.mem_uc Cert.KernelIdeal.main_arg0 (by decide))).trans (Cert.KernelIdeal.Run.W3_main_arg0 m ρ c),
       (h c _ (Cert.KernelIdeal.Run.mem_uc Cert.KernelIdeal.main_arg1 (by decide))).trans (Cert.KernelIdeal.Run.W3_main_arg1 m ρ c),
       (h c _ (Cert.KernelIdeal.Run.mem_uc Cert.KernelIdeal.main_arg2 (by decide))).trans (Cert.KernelIdeal.Run.W3_main_arg2 m ρ c),
       (h c _ (Cert.KernelIdeal.Run.mem_uc Cert.KernelIdeal.main_arg3 (by decide))).trans (Cert.KernelIdeal.Run.W3_main_arg3 m ρ c),
       (h c _ (Cert.KernelIdeal.Run.mem_uc Cert.KernelIdeal.main_arg4 (by decide))).trans (Cert.KernelIdeal.Run.W3_main_arg4 m ρ c)⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
